-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x160x160x160 : Shape := ⟨5, ![8, 1, 160, 160, 160]⟩
abbrev S3 : Shape := ⟨1, ![3]⟩
abbrev S_ : Shape := ⟨0, ![]⟩

class Facts : Prop where
  bcast_S_S8x1x160x160x160 : S_.BroadcastsInDim S8x1x160x160x160 (![] : Fin 0 → Fin S8x1x160x160x160.rank)
  reducesTo_S8x1x160x160x160_S_d0_1_2_3_4 : S8x1x160x160x160.ReducesTo [0, 1, 2, 3, 4] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S8x1x160x160x160 .f32) (main_arg1 : FVec F S3 .f32) : IVec S_ 1 :=
  let main_v0 : FVec F S8x1x160x160x160 .f32 := Host.absf main_arg0
  let main_cst : FVec F S_ .f32 := constant S_ .f32 0x7F800000#32
  let main_v1 : FVec F S8x1x160x160x160 .f32 := broadcastInDim S8x1x160x160x160 ![] bcast_S_S8x1x160x160x160 main_cst
  let main_v2 : IVec S8x1x160x160x160 1 := cmpf .olt main_v0 main_v1
  let main_c : IVec S_ 1 := constantI S_ 1 1#1
  let main_v3 : IVec S_ 1 := (fun x v => Host.reduce IntOp.andi x v reducesTo_S8x1x160x160x160_S_d0_1_2_3_4 h_S_) main_v2 main_c
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  main_v8
-- ==== Kernel.lean ====
abbrev S8x1x160x160x160 : Shape := ⟨5, ![8, 1, 160, 160, 160]⟩
abbrev S3 : Shape := ⟨1, ![3]⟩
abbrev S8x3x160 : Shape := ⟨3, ![8, 3, 160]⟩
abbrev S1x1x160x160x160 : Shape := ⟨5, ![1, 1, 160, 160, 160]⟩
abbrev S1x3x160 : Shape := ⟨3, ![1, 3, 160]⟩
abbrev S1x1x17x160x160 : Shape := ⟨5, ![1, 1, 17, 160, 160]⟩
abbrev S17x160x160 : Shape := ⟨3, ![17, 160, 160]⟩
abbrev S16x160x160 : Shape := ⟨3, ![16, 160, 160]⟩
abbrev S16x160 : Shape := ⟨2, ![16, 160]⟩
abbrev S16 : Shape := ⟨1, ![16]⟩
abbrev S1x1x16 : Shape := ⟨3, ![1, 1, 16]⟩
abbrev S1x1x16x160x160 : Shape := ⟨5, ![1, 1, 16, 160, 160]⟩
abbrev S15x160x160 : Shape := ⟨3, ![15, 160, 160]⟩
abbrev S15x160 : Shape := ⟨2, ![15, 160]⟩
abbrev S15 : Shape := ⟨1, ![15]⟩
abbrev S1x1x15 : Shape := ⟨3, ![1, 1, 15]⟩
abbrev S1x1x160x17x160 : Shape := ⟨5, ![1, 1, 160, 17, 160]⟩
abbrev S160x17x160 : Shape := ⟨3, ![160, 17, 160]⟩
abbrev S160x16x160 : Shape := ⟨3, ![160, 16, 160]⟩
abbrev S1x1x160x16x160 : Shape := ⟨5, ![1, 1, 160, 16, 160]⟩
abbrev S160x15x160 : Shape := ⟨3, ![160, 15, 160]⟩
abbrev S1x1x160x160x17 : Shape := ⟨5, ![1, 1, 160, 160, 17]⟩
abbrev S160x160x17 : Shape := ⟨3, ![160, 160, 17]⟩
abbrev S160x160x16 : Shape := ⟨3, ![160, 160, 16]⟩
abbrev S160x16 : Shape := ⟨2, ![160, 16]⟩
abbrev S1x1x160x160x16 : Shape := ⟨5, ![1, 1, 160, 160, 16]⟩
abbrev S160x160x15 : Shape := ⟨3, ![160, 160, 15]⟩
abbrev S160x15 : Shape := ⟨2, ![160, 15]⟩
abbrev S3x1 : Shape := ⟨2, ![3, 1]⟩
abbrev S1x3x1 : Shape := ⟨3, ![1, 3, 1]⟩
abbrev S8x3x159 : Shape := ⟨3, ![8, 3, 159]⟩
abbrev S_ : Shape := ⟨0, ![]⟩

abbrev nBuf : Space → Nat
  | .hbm => 24
  | .vmem => 4
  | .smem => 0
  | _ => 0

abbrev bufTy : (tb : Table) → Fin (tcTables nBuf tb) → BufTy
  | .hbm, ⟨0, _⟩ => ⟨S8x1x160x160x160, .f32⟩
  | .hbm, ⟨1, _⟩ => ⟨S3, .f32⟩
  | .hbm, ⟨2, _⟩ => ⟨S8x3x160, .f32⟩
  | .hbm, ⟨3, _⟩ => ⟨S8x3x159, .f32⟩
  | .hbm, ⟨4, _⟩ => ⟨S3, .f32⟩
  | .hbm, ⟨5, _⟩ => ⟨S_, .f32⟩
  | .hbm, ⟨6, _⟩ => ⟨S3, .f32⟩
  | .hbm, ⟨7, _⟩ => ⟨S3, .f32⟩
  | .hbm, ⟨8, _⟩ => ⟨S3, .f32⟩
  | .hbm, ⟨9, _⟩ => ⟨S1x3x1, .f32⟩
  | .hbm, ⟨10, _⟩ => ⟨S8x3x159, .f32⟩
  | .hbm, ⟨11, _⟩ => ⟨S8x3x159, .f32⟩
  | .hbm, ⟨12, _⟩ => ⟨S8x3x159, .f32⟩
  | .hbm, ⟨13, _⟩ => ⟨S8x3x159, .f32⟩
  | .hbm, ⟨14, _⟩ => ⟨S_, .f32⟩
  | .hbm, ⟨15, _⟩ => ⟨S3, .f32⟩
  | .hbm, ⟨16, _⟩ => ⟨S_, .f32⟩
  | .hbm, ⟨17, _⟩ => ⟨S3, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1x160x160x160, .f32⟩
  | .local _ .vmem, ⟨1, _⟩ => ⟨S1x1x160x160x160, .f32⟩
  | .local _ .vmem, ⟨2, _⟩ => ⟨S1x3x160, .f32⟩
  | .local _ .vmem, ⟨3, _⟩ => ⟨S1x3x160, .f32⟩
  | _, _ => ⟨S8x1x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x160x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1x160x160x160_S1x1x17x160x160_0_0_0_0_0 : ∀ a, (![0, 0, 0, 0, 0] : Fin 5 → Nat) a + S1x1x17x160x160.size a ≤ S1x1x160x160x160.size a
  h_S1x1x17x160x160 : 0 < S1x1x17x160x160.numel
  shapeCasts_S1x1x17x160x160_S17x160x160 : S1x1x17x160x160.ShapeCasts S17x160x160
  slices_S17x160x160_o1_0_0_S16x160x160 : S17x160x160.Slices ![1, 0, 0] S16x160x160
  slices_S17x160x160_o0_0_0_S16x160x160 : S17x160x160.Slices ![0, 0, 0] S16x160x160
  reduces_S16x160x160_S16x160 : S16x160x160.Reduces [2] S16x160
  reduces_S16x160_S16 : S16x160.Reduces [1] S16
  inb_S1x3x160_S1x1x16_0_0_0 : ∀ a, (![0, 0, 0] : Fin 3 → Nat) a + S1x1x16.size a ≤ S1x3x160.size a
  h_S1x1x16 : 0 < S1x1x16.numel
  shapeCasts_S1x1x16_S16 : S1x1x16.ShapeCasts S16
  shapeCasts_S16_S1x1x16 : S16.ShapeCasts S1x1x16
  inb_S1x1x160x160x160_S1x1x17x160x160_0_0_16_0_0 : ∀ a, (![0, 0, 16, 0, 0] : Fin 5 → Nat) a + S1x1x17x160x160.size a ≤ S1x1x160x160x160.size a
  inb_S1x3x160_S1x1x16_0_0_16 : ∀ a, (![0, 0, 16] : Fin 3 → Nat) a + S1x1x16.size a ≤ S1x3x160.size a
  inb_S1x1x160x160x160_S1x1x17x160x160_0_0_32_0_0 : ∀ a, (![0, 0, 32, 0, 0] : Fin 5 → Nat) a + S1x1x17x160x160.size a ≤ S1x1x160x160x160.size a
  inb_S1x3x160_S1x1x16_0_0_32 : ∀ a, (![0, 0, 32] : Fin 3 → Nat) a + S1x1x16.size a ≤ S1x3x160.size a
  inb_S1x1x160x160x160_S1x1x17x160x160_0_0_48_0_0 : ∀ a, (![0, 0, 48, 0, 0] : Fin 5 → Nat) a + S1x1x17x160x160.size a ≤ S1x1x160x160x160.size a
  inb_S1x3x160_S1x1x16_0_0_48 : ∀ a, (![0, 0, 48] : Fin 3 → Nat) a + S1x1x16.size a ≤ S1x3x160.size a
  inb_S1x1x160x160x160_S1x1x17x160x160_0_0_64_0_0 : ∀ a, (![0, 0, 64, 0, 0] : Fin 5 → Nat) a + S1x1x17x160x160.size a ≤ S1x1x160x160x160.size a
  inb_S1x3x160_S1x1x16_0_0_64 : ∀ a, (![0, 0, 64] : Fin 3 → Nat) a + S1x1x16.size a ≤ S1x3x160.size a
  inb_S1x1x160x160x160_S1x1x17x160x160_0_0_80_0_0 : ∀ a, (![0, 0, 80, 0, 0] : Fin 5 → Nat) a + S1x1x17x160x160.size a ≤ S1x1x160x160x160.size a
  inb_S1x3x160_S1x1x16_0_0_80 : ∀ a, (![0, 0, 80] : Fin 3 → Nat) a + S1x1x16.size a ≤ S1x3x160.size a
  inb_S1x1x160x160x160_S1x1x17x160x160_0_0_96_0_0 : ∀ a, (![0, 0, 96, 0, 0] : Fin 5 → Nat) a + S1x1x17x160x160.size a ≤ S1x1x160x160x160.size a
  inb_S1x3x160_S1x1x16_0_0_96 : ∀ a, (![0, 0, 96] : Fin 3 → Nat) a + S1x1x16.size a ≤ S1x3x160.size a
  inb_S1x1x160x160x160_S1x1x17x160x160_0_0_112_0_0 : ∀ a, (![0, 0, 112, 0, 0] : Fin 5 → Nat) a + S1x1x17x160x160.size a ≤ S1x1x160x160x160.size a
  inb_S1x3x160_S1x1x16_0_0_112 : ∀ a, (![0, 0, 112] : Fin 3 → Nat) a + S1x1x16.size a ≤ S1x3x160.size a
  inb_S1x1x160x160x160_S1x1x17x160x160_0_0_128_0_0 : ∀ a, (![0, 0, 128, 0, 0] : Fin 5 → Nat) a + S1x1x17x160x160.size a ≤ S1x1x160x160x160.size a
  inb_S1x3x160_S1x1x16_0_0_128 : ∀ a, (![0, 0, 128] : Fin 3 → Nat) a + S1x1x16.size a ≤ S1x3x160.size a
  inb_S1x1x160x160x160_S1x1x16x160x160_0_0_144_0_0 : ∀ a, (![0, 0, 144, 0, 0] : Fin 5 → Nat) a + S1x1x16x160x160.size a ≤ S1x1x160x160x160.size a
  h_S1x1x16x160x160 : 0 < S1x1x16x160x160.numel
  shapeCasts_S1x1x16x160x160_S16x160x160 : S1x1x16x160x160.ShapeCasts S16x160x160
  slices_S16x160x160_o1_0_0_S15x160x160 : S16x160x160.Slices ![1, 0, 0] S15x160x160
  slices_S16x160x160_o0_0_0_S15x160x160 : S16x160x160.Slices ![0, 0, 0] S15x160x160
  reduces_S15x160x160_S15x160 : S15x160x160.Reduces [2] S15x160
  reduces_S15x160_S15 : S15x160.Reduces [1] S15
  inb_S1x3x160_S1x1x15_0_0_144 : ∀ a, (![0, 0, 144] : Fin 3 → Nat) a + S1x1x15.size a ≤ S1x3x160.size a
  h_S1x1x15 : 0 < S1x1x15.numel
  shapeCasts_S1x1x15_S15 : S1x1x15.ShapeCasts S15
  shapeCasts_S15_S1x1x15 : S15.ShapeCasts S1x1x15
  inb_S1x1x160x160x160_S1x1x160x17x160_0_0_0_0_0 : ∀ a, (![0, 0, 0, 0, 0] : Fin 5 → Nat) a + S1x1x160x17x160.size a ≤ S1x1x160x160x160.size a
  h_S1x1x160x17x160 : 0 < S1x1x160x17x160.numel
  shapeCasts_S1x1x160x17x160_S160x17x160 : S1x1x160x17x160.ShapeCasts S160x17x160
  slices_S160x17x160_o0_1_0_S160x16x160 : S160x17x160.Slices ![0, 1, 0] S160x16x160
  slices_S160x17x160_o0_0_0_S160x16x160 : S160x17x160.Slices ![0, 0, 0] S160x16x160
  reduces_S160x16x160_S16x160 : S160x16x160.Reduces [0] S16x160
  inb_S1x3x160_S1x1x16_0_1_0 : ∀ a, (![0, 1, 0] : Fin 3 → Nat) a + S1x1x16.size a ≤ S1x3x160.size a
  inb_S1x1x160x160x160_S1x1x160x17x160_0_0_0_16_0 : ∀ a, (![0, 0, 0, 16, 0] : Fin 5 → Nat) a + S1x1x160x17x160.size a ≤ S1x1x160x160x160.size a
  inb_S1x3x160_S1x1x16_0_1_16 : ∀ a, (![0, 1, 16] : Fin 3 → Nat) a + S1x1x16.size a ≤ S1x3x160.size a
  inb_S1x1x160x160x160_S1x1x160x17x160_0_0_0_32_0 : ∀ a, (![0, 0, 0, 32, 0] : Fin 5 → Nat) a + S1x1x160x17x160.size a ≤ S1x1x160x160x160.size a
  inb_S1x3x160_S1x1x16_0_1_32 : ∀ a, (![0, 1, 32] : Fin 3 → Nat) a + S1x1x16.size a ≤ S1x3x160.size a
  inb_S1x1x160x160x160_S1x1x160x17x160_0_0_0_48_0 : ∀ a, (![0, 0, 0, 48, 0] : Fin 5 → Nat) a + S1x1x160x17x160.size a ≤ S1x1x160x160x160.size a
  inb_S1x3x160_S1x1x16_0_1_48 : ∀ a, (![0, 1, 48] : Fin 3 → Nat) a + S1x1x16.size a ≤ S1x3x160.size a
  inb_S1x1x160x160x160_S1x1x160x17x160_0_0_0_64_0 : ∀ a, (![0, 0, 0, 64, 0] : Fin 5 → Nat) a + S1x1x160x17x160.size a ≤ S1x1x160x160x160.size a
  inb_S1x3x160_S1x1x16_0_1_64 : ∀ a, (![0, 1, 64] : Fin 3 → Nat) a + S1x1x16.size a ≤ S1x3x160.size a
  inb_S1x1x160x160x160_S1x1x160x17x160_0_0_0_80_0 : ∀ a, (![0, 0, 0, 80, 0] : Fin 5 → Nat) a + S1x1x160x17x160.size a ≤ S1x1x160x160x160.size a
  inb_S1x3x160_S1x1x16_0_1_80 : ∀ a, (![0, 1, 80] : Fin 3 → Nat) a + S1x1x16.size a ≤ S1x3x160.size a
  inb_S1x1x160x160x160_S1x1x160x17x160_0_0_0_96_0 : ∀ a, (![0, 0, 0, 96, 0] : Fin 5 → Nat) a + S1x1x160x17x160.size a ≤ S1x1x160x160x160.size a
  inb_S1x3x160_S1x1x16_0_1_96 : ∀ a, (![0, 1, 96] : Fin 3 → Nat) a + S1x1x16.size a ≤ S1x3x160.size a
  inb_S1x1x160x160x160_S1x1x160x17x160_0_0_0_112_0 : ∀ a, (![0, 0, 0, 112, 0] : Fin 5 → Nat) a + S1x1x160x17x160.size a ≤ S1x1x160x160x160.size a
  inb_S1x3x160_S1x1x16_0_1_112 : ∀ a, (![0, 1, 112] : Fin 3 → Nat) a + S1x1x16.size a ≤ S1x3x160.size a
  inb_S1x1x160x160x160_S1x1x160x17x160_0_0_0_128_0 : ∀ a, (![0, 0, 0, 128, 0] : Fin 5 → Nat) a + S1x1x160x17x160.size a ≤ S1x1x160x160x160.size a
  inb_S1x3x160_S1x1x16_0_1_128 : ∀ a, (![0, 1, 128] : Fin 3 → Nat) a + S1x1x16.size a ≤ S1x3x160.size a
  inb_S1x1x160x160x160_S1x1x160x16x160_0_0_0_144_0 : ∀ a, (![0, 0, 0, 144, 0] : Fin 5 → Nat) a + S1x1x160x16x160.size a ≤ S1x1x160x160x160.size a
  h_S1x1x160x16x160 : 0 < S1x1x160x16x160.numel
  shapeCasts_S1x1x160x16x160_S160x16x160 : S1x1x160x16x160.ShapeCasts S160x16x160
  slices_S160x16x160_o0_1_0_S160x15x160 : S160x16x160.Slices ![0, 1, 0] S160x15x160
  slices_S160x16x160_o0_0_0_S160x15x160 : S160x16x160.Slices ![0, 0, 0] S160x15x160
  reduces_S160x15x160_S15x160 : S160x15x160.Reduces [0] S15x160
  inb_S1x3x160_S1x1x15_0_1_144 : ∀ a, (![0, 1, 144] : Fin 3 → Nat) a + S1x1x15.size a ≤ S1x3x160.size a
  inb_S1x1x160x160x160_S1x1x160x160x17_0_0_0_0_0 : ∀ a, (![0, 0, 0, 0, 0] : Fin 5 → Nat) a + S1x1x160x160x17.size a ≤ S1x1x160x160x160.size a
  h_S1x1x160x160x17 : 0 < S1x1x160x160x17.numel
  shapeCasts_S1x1x160x160x17_S160x160x17 : S1x1x160x160x17.ShapeCasts S160x160x17
  slices_S160x160x17_o0_0_1_S160x160x16 : S160x160x17.Slices ![0, 0, 1] S160x160x16
  slices_S160x160x17_o0_0_0_S160x160x16 : S160x160x17.Slices ![0, 0, 0] S160x160x16
  reduces_S160x160x16_S160x16 : S160x160x16.Reduces [0] S160x16
  reduces_S160x16_S16 : S160x16.Reduces [0] S16
  inb_S1x3x160_S1x1x16_0_2_0 : ∀ a, (![0, 2, 0] : Fin 3 → Nat) a + S1x1x16.size a ≤ S1x3x160.size a
  inb_S1x1x160x160x160_S1x1x160x160x17_0_0_0_0_16 : ∀ a, (![0, 0, 0, 0, 16] : Fin 5 → Nat) a + S1x1x160x160x17.size a ≤ S1x1x160x160x160.size a
  inb_S1x3x160_S1x1x16_0_2_16 : ∀ a, (![0, 2, 16] : Fin 3 → Nat) a + S1x1x16.size a ≤ S1x3x160.size a
  inb_S1x1x160x160x160_S1x1x160x160x17_0_0_0_0_32 : ∀ a, (![0, 0, 0, 0, 32] : Fin 5 → Nat) a + S1x1x160x160x17.size a ≤ S1x1x160x160x160.size a
  inb_S1x3x160_S1x1x16_0_2_32 : ∀ a, (![0, 2, 32] : Fin 3 → Nat) a + S1x1x16.size a ≤ S1x3x160.size a
  inb_S1x1x160x160x160_S1x1x160x160x17_0_0_0_0_48 : ∀ a, (![0, 0, 0, 0, 48] : Fin 5 → Nat) a + S1x1x160x160x17.size a ≤ S1x1x160x160x160.size a
  inb_S1x3x160_S1x1x16_0_2_48 : ∀ a, (![0, 2, 48] : Fin 3 → Nat) a + S1x1x16.size a ≤ S1x3x160.size a
  inb_S1x1x160x160x160_S1x1x160x160x17_0_0_0_0_64 : ∀ a, (![0, 0, 0, 0, 64] : Fin 5 → Nat) a + S1x1x160x160x17.size a ≤ S1x1x160x160x160.size a
  inb_S1x3x160_S1x1x16_0_2_64 : ∀ a, (![0, 2, 64] : Fin 3 → Nat) a + S1x1x16.size a ≤ S1x3x160.size a
  inb_S1x1x160x160x160_S1x1x160x160x17_0_0_0_0_80 : ∀ a, (![0, 0, 0, 0, 80] : Fin 5 → Nat) a + S1x1x160x160x17.size a ≤ S1x1x160x160x160.size a
  inb_S1x3x160_S1x1x16_0_2_80 : ∀ a, (![0, 2, 80] : Fin 3 → Nat) a + S1x1x16.size a ≤ S1x3x160.size a
  inb_S1x1x160x160x160_S1x1x160x160x17_0_0_0_0_96 : ∀ a, (![0, 0, 0, 0, 96] : Fin 5 → Nat) a + S1x1x160x160x17.size a ≤ S1x1x160x160x160.size a
  inb_S1x3x160_S1x1x16_0_2_96 : ∀ a, (![0, 2, 96] : Fin 3 → Nat) a + S1x1x16.size a ≤ S1x3x160.size a
  inb_S1x1x160x160x160_S1x1x160x160x17_0_0_0_0_112 : ∀ a, (![0, 0, 0, 0, 112] : Fin 5 → Nat) a + S1x1x160x160x17.size a ≤ S1x1x160x160x160.size a
  inb_S1x3x160_S1x1x16_0_2_112 : ∀ a, (![0, 2, 112] : Fin 3 → Nat) a + S1x1x16.size a ≤ S1x3x160.size a
  inb_S1x1x160x160x160_S1x1x160x160x17_0_0_0_0_128 : ∀ a, (![0, 0, 0, 0, 128] : Fin 5 → Nat) a + S1x1x160x160x17.size a ≤ S1x1x160x160x160.size a
  inb_S1x3x160_S1x1x16_0_2_128 : ∀ a, (![0, 2, 128] : Fin 3 → Nat) a + S1x1x16.size a ≤ S1x3x160.size a
  inb_S1x1x160x160x160_S1x1x160x160x16_0_0_0_0_144 : ∀ a, (![0, 0, 0, 0, 144] : Fin 5 → Nat) a + S1x1x160x160x16.size a ≤ S1x1x160x160x160.size a
  h_S1x1x160x160x16 : 0 < S1x1x160x160x16.numel
  shapeCasts_S1x1x160x160x16_S160x160x16 : S1x1x160x160x16.ShapeCasts S160x160x16
  slices_S160x160x16_o0_0_1_S160x160x15 : S160x160x16.Slices ![0, 0, 1] S160x160x15
  slices_S160x160x16_o0_0_0_S160x160x15 : S160x160x16.Slices ![0, 0, 0] S160x160x15
  reduces_S160x160x15_S160x15 : S160x160x15.Reduces [0] S160x15
  reduces_S160x15_S15 : S160x15.Reduces [0] S15
  inb_S1x3x160_S1x1x15_0_2_144 : ∀ a, (![0, 2, 144] : Fin 3 → Nat) a + S1x1x15.size a ≤ S1x3x160.size a
  inb_S1x3x160_S1x3x1_0_0_159 : ∀ a, (![0, 0, 159] : Fin 3 → Nat) a + S1x3x1.size a ≤ S1x3x160.size a
  h_S1x3x1 : 0 < S1x3x1.numel
  shapeCasts_S1x3x1_S3x1 : S1x3x1.ShapeCasts S3x1
  shapeCasts_S3x1_S1x3x1 : S3x1.ShapeCasts S1x3x1
  slices_S8x3x160_S8x3x159_0_0_0 : S8x3x160.Slices ![0, 0, 0] S8x3x159
  bcast_S_S3 : S_.BroadcastsInDim S3 (![] : Fin 0 → Fin S3.rank)
  shapeCasts_S3_S1x3x1 : S3.ShapeCasts S1x3x1
  bcast_S1x3x1_S8x3x159_0_1_2 : S1x3x1.BroadcastsInDim S8x3x159 (![0, 1, 2] : Fin 3 → Fin S8x3x159.rank)
  reducesTo_S8x3x159_S3_d0_2 : S8x3x159.ReducesTo [0, 2] S3
  h_S_ : 0 < S_.numel
  reducesTo_S3_S_d0 : S3.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x160x160x160.size a ≤ S8x1x160x160x160.size a
  hwx0_0 : ∀ i : grid0.Coords, EltTy.bits .f32 = 32 ∨ (Rect.block (s := S8x1x160x160x160) S1x1x160x160x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x160.size a ≤ S8x3x160.size a
  hwx0_1 : ∀ i : grid0.Coords, EltTy.bits .f32 = 32 ∨ (Rect.block (s := S8x3x160) S1x3x160.size (cc0_transform_1 i) (hinb0_1 i)).WholeWords (EltTy.packing .f32)

variable [Facts₀]

abbrev win0_0 : Pipeline.Window sig grid0 :=
  Pipeline.Window.ofSpec (Memref.whole main_arg0) S1x1x160x160x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x160.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x1x160x160x160 : Shape := ⟨5, ![8, 1, 160, 160, 160]⟩
abbrev S3 : Shape := ⟨1, ![3]⟩
abbrev S8x1x159x160x160 : Shape := ⟨5, ![8, 1, 159, 160, 160]⟩
abbrev S_ : Shape := ⟨0, ![]⟩
abbrev S8x159 : Shape := ⟨2, ![8, 159]⟩
abbrev S1 : Shape := ⟨1, ![1]⟩
abbrev S8x1x160x159x160 : Shape := ⟨5, ![8, 1, 160, 159, 160]⟩
abbrev S8x1x160x160x159 : Shape := ⟨5, ![8, 1, 160, 160, 159]⟩

abbrev nBuf : Space → Nat
  | .hbm => 69
  | .vmem => 0
  | .smem => 0
  | _ => 0

abbrev bufTy : (tb : Table) → Fin (tcTables nBuf tb) → BufTy
  | .hbm, ⟨0, _⟩ => ⟨S8x1x160x160x160, .f32⟩
  | .hbm, ⟨1, _⟩ => ⟨S3, .f32⟩
  | .hbm, ⟨2, _⟩ => ⟨S3, .f32⟩
  | .hbm, ⟨3, _⟩ => ⟨S8x1x159x160x160, .f32⟩
  | .hbm, ⟨4, _⟩ => ⟨S8x1x159x160x160, .f32⟩
  | .hbm, ⟨5, _⟩ => ⟨S8x1x159x160x160, .f32⟩
  | .hbm, ⟨6, _⟩ => ⟨S8x1x159x160x160, .f32⟩
  | .hbm, ⟨7, _⟩ => ⟨S_, .f32⟩
  | .hbm, ⟨8, _⟩ => ⟨S8x159, .f32⟩
  | .hbm, ⟨9, _⟩ => ⟨S8x159, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x159, .f32⟩
  | .hbm, ⟨16, _⟩ => ⟨S8x159, .f32⟩
  | .hbm, ⟨17, _⟩ => ⟨S8x159, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x1x160x159x160, .f32⟩
  | .hbm, ⟨26, _⟩ => ⟨S8x1x160x159x160, .f32⟩
  | .hbm, ⟨27, _⟩ => ⟨S8x1x160x159x160, .f32⟩
  | .hbm, ⟨28, _⟩ => ⟨S8x1x160x159x160, .f32⟩
  | .hbm, ⟨29, _⟩ => ⟨S_, .f32⟩
  | .hbm, ⟨30, _⟩ => ⟨S8x159, .f32⟩
  | .hbm, ⟨31, _⟩ => ⟨S8x159, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8x159, .f32⟩
  | .hbm, ⟨38, _⟩ => ⟨S8x159, .f32⟩
  | .hbm, ⟨39, _⟩ => ⟨S8x159, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x1x160x160x159, .f32⟩
  | .hbm, ⟨47, _⟩ => ⟨S8x1x160x160x159, .f32⟩
  | .hbm, ⟨48, _⟩ => ⟨S8x1x160x160x159, .f32⟩
  | .hbm, ⟨49, _⟩ => ⟨S8x1x160x160x159, .f32⟩
  | .hbm, ⟨50, _⟩ => ⟨S_, .f32⟩
  | .hbm, ⟨51, _⟩ => ⟨S8x159, .f32⟩
  | .hbm, ⟨52, _⟩ => ⟨S8x159, .f32⟩
  | .hbm, ⟨53, _⟩ => ⟨S1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8x159, .f32⟩
  | .hbm, ⟨59, _⟩ => ⟨S8x159, .f32⟩
  | .hbm, ⟨60, _⟩ => ⟨S8x159, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S8x1x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call2_v0 : Ref sig .tc := ⟨.hbm, 46, rfl⟩
abbrev main_call2_v1 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩

abbrev nD : Nat := 1
abbrev τ : Topo := Topo.v7x

variable {F : FTy → Type} [FloatOps F]

class Facts₀ : Prop where
  slices_S8x1x160x160x160_S8x1x159x160x160_0_0_1_0_0 : S8x1x160x160x160.Slices ![0, 0, 1, 0, 0] S8x1x159x160x160
  slices_S8x1x160x160x160_S8x1x159x160x160_0_0_0_0_0 : S8x1x160x160x160.Slices ![0, 0, 0, 0, 0] S8x1x159x160x160
  reducesTo_S8x1x159x160x160_S8x159_d1_3_4 : S8x1x159x160x160.ReducesTo [1, 3, 4] S8x159
  h_S_ : 0 < S_.numel
  slices_S3_S1_0 : S3.Slices ![0] S1
  shapeCasts_S1_S_ : S1.ShapeCasts S_
  bcast_S_S8x159 : S_.BroadcastsInDim S8x159 (![] : Fin 0 → Fin S8x159.rank)
  reducesTo_S8x159_S_d0_1 : S8x159.ReducesTo [0, 1] S_
  slices_S8x1x160x160x160_S8x1x160x159x160_0_0_0_1_0 : S8x1x160x160x160.Slices ![0, 0, 0, 1, 0] S8x1x160x159x160
  slices_S8x1x160x160x160_S8x1x160x159x160_0_0_0_0_0 : S8x1x160x160x160.Slices ![0, 0, 0, 0, 0] S8x1x160x159x160
  reducesTo_S8x1x160x159x160_S8x159_d1_2_4 : S8x1x160x159x160.ReducesTo [1, 2, 4] S8x159
  slices_S3_S1_1 : S3.Slices ![1] S1
  slices_S8x1x160x160x160_S8x1x160x160x159_0_0_0_0_1 : S8x1x160x160x160.Slices ![0, 0, 0, 0, 1] S8x1x160x160x159
  slices_S8x1x160x160x160_S8x1x160x160x159_0_0_0_0_0 : S8x1x160x160x160.Slices ![0, 0, 0, 0, 0] S8x1x160x160x159
  reducesTo_S8x1x160x160x159_S8x159_d1_2_3 : S8x1x160x160x159.ReducesTo [1, 2, 3] S8x159
  slices_S3_S1_2 : S3.Slices ![2] S1

variable [Facts₀]

class Facts : Prop extends Facts₀ where

variable [Facts]
-- ==== Proof.Spec.lean ====
/-
  The mathematics both programs compute, stated once on the extended reals.

  For a volume x[b, 0, d, h, w] (8 batches of 160³ voxels) and each of the three spatial axes, the squared distance
  between neighbouring slices j and j+1 (j < 159) is the sum, over the two other spatial coordinates, of the squared
  voxel differences: `dist x a b j`. The result is
      (1/3) · Σ_a −( (Σ_b Σ_j exp(−dist x a b j / (2·σ_a²))) / 1272 ),   σ_a = exp(log_sigma a),
  with every operation the exact one on the extended reals (`Ideal.div`, `Ideal.exp`).
  Also here: a host sum over several axes, read at an index as a nested sum over the reduced coordinates (the fibre of the
  index under "drop the reduced coordinates" is a product of coordinate ranges).
-/
import Idealize.ShloMosaic.PureOps.Ideal
import Idealize.ShloMosaic.PureOps.Ideal.Laws
import Idealize.ShloMosaic.Lib.ValueIdx

noncomputable section

namespace Cert.SliceDist

open Idealize.ShloMosaic Idealize.ShloMosaic.ValueIdx
open scoped BigOperators

/-- Slice j+1 of an axis of 160, for a pair index j < 159. -/
abbrev up (j : Fin 159) : Fin 160 := ⟨j.val + 1, by have := j.isLt; omega⟩
/-- Slice j of an axis of 160, for a pair index j < 159. -/
abbrev dn (j : Fin 159) : Fin 160 := ⟨j.val, by have := j.isLt; omega⟩

/-- The squared difference of two voxels. -/
def sq (u v : EReal) : EReal := (u - v) * (u - v)

/-- The squared distance between slices j+1 and j along spatial axis a (0: depth, 1: height, 2: width) of batch b. -/
def dist (x : (⟨5, ![8, 1, 160, 160, 160]⟩ : Shape).Idx → EReal) (a : Fin 3) (b : Fin 8) (j : Fin 159) : EReal :=
  match a with
  | 0 => ∑ h : Fin 160, ∑ w : Fin 160, sq (x (ix5 b 0 (up j) h w)) (x (ix5 b 0 (dn j) h w))
  | 1 => ∑ w : Fin 160, ∑ d : Fin 160, sq (x (ix5 b 0 d (up j) w)) (x (ix5 b 0 d (dn j) w))
  | 2 => ∑ h : Fin 160, ∑ d : Fin 160, sq (x (ix5 b 0 d h (up j))) (x (ix5 b 0 d h (dn j)))

/-- The kernel width of axis a: σ_a = exp(log_sigma a). -/
def sigma (ls : (⟨1, ![3]⟩ : Shape).Idx → EReal) (a : Fin 3) : EReal := Ideal.exp (ls (ix1 a))

/-- Minus the mean over the 8·159 = 1272 slice pairs of axis a of the radial kernel exp(−dist / (2σ_a²)). -/
def negMean (x : (⟨5, ![8, 1, 160, 160, 160]⟩ : Shape).Idx → EReal) (ls : (⟨1, ![3]⟩ : Shape).Idx → EReal) (a : Fin 3) : EReal :=
  -(Ideal.div (∑ b : Fin 8, ∑ j : Fin 159,
      Ideal.exp (Ideal.div (-(dist x a b j)) (Ideal.ofBits .f32 0x40000000#32 * (sigma ls a * sigma ls a))))
    (Ideal.ofBits .f32 0x449F0000#32))

/-- The loss: the three axes' negated means, summed and divided by three. -/
def loss (x : (⟨5, ![8, 1, 160, 160, 160]⟩ : Shape).Idx → EReal) (ls : (⟨1, ![3]⟩ : Shape).Idx → EReal) : EReal :=
  Ideal.div (∑ a : Fin 3, negMean x ls a) (Ideal.ofBits .f32 0x40400000#32)

/-! ## A host sum over several axes, read at an index -/

/-- Summing a [8, 1, 159, 160, 160] array over axes 1, 3, 4: at (b, j) the nested sum over the last two coordinates. -/
theorem reduce_134 (h : (⟨5, ![8, 1, 159, 160, 160]⟩ : Shape).ReducesTo [1, 3, 4] ⟨2, ![8, 159]⟩)
    (f : (⟨5, ![8, 1, 159, 160, 160]⟩ : Shape).Idx → EReal) (init : EReal) (b : Fin 8) (j : Fin 159) :
    Ideal.hostReduceAdd h f init (ix2 b j) = init + ∑ p : Fin 160, ∑ q : Fin 160, f (ix5 b 0 j p q) := by
  unfold Ideal.hostReduceAdd
  congr 1
  have key : ∀ i : (⟨5, ![8, 1, 159, 160, 160]⟩ : Shape).Idx, h.drop i = ix2 b j → ix5 b 0 j (i 3) (i 4) = i := by
    intro i hi'
    have h0 : (i 0).val = b.val := congrArg Fin.val (congrFun hi' 0)
    have h2 : (i 2).val = j.val := congrArg Fin.val (congrFun hi' 1)
    have h1 : (i 1).val < 1 := (i 1).isLt
    funext c
    match c with
    | ⟨0, _⟩ => exact Fin.ext h0.symm
    | ⟨1, _⟩ => exact Fin.ext (by show 0 = (i 1).val; omega)
    | ⟨2, _⟩ => exact Fin.ext h2.symm
    | ⟨3, _⟩ => rfl
    | ⟨4, _⟩ => rfl
  rw [← Finset.sum_product']
  refine Finset.sum_nbij' (fun i => (i 3, i 4)) (fun pq => ix5 b 0 j pq.1 pq.2) ?_ ?_ ?_ ?_ ?_
  · intro i _; exact Finset.mem_product.mpr ⟨Finset.mem_univ _, Finset.mem_univ _⟩
  · intro pq _
    refine Finset.mem_filter.mpr ⟨Finset.mem_univ _, ?_⟩
    funext c; match c with | ⟨0, _⟩ => rfl | ⟨1, _⟩ => rfl
  · intro i hi; exact key i (Finset.mem_filter.mp hi).2
  · intro pq _; rfl
  · intro i hi; exact congrArg f (key i (Finset.mem_filter.mp hi).2).symm

/-- Summing a [8, 1, 160, 159, 160] array over axes 1, 2, 4: at (b, j) the nested sum over width, then depth. -/
theorem reduce_124 (h : (⟨5, ![8, 1, 160, 159, 160]⟩ : Shape).ReducesTo [1, 2, 4] ⟨2, ![8, 159]⟩)
    (f : (⟨5, ![8, 1, 160, 159, 160]⟩ : Shape).Idx → EReal) (init : EReal) (b : Fin 8) (j : Fin 159) :
    Ideal.hostReduceAdd h f init (ix2 b j) = init + ∑ p : Fin 160, ∑ q : Fin 160, f (ix5 b 0 q j p) := by
  unfold Ideal.hostReduceAdd
  congr 1
  have key : ∀ i : (⟨5, ![8, 1, 160, 159, 160]⟩ : Shape).Idx, h.drop i = ix2 b j → ix5 b 0 (i 2) j (i 4) = i := by
    intro i hi'
    have h0 : (i 0).val = b.val := congrArg Fin.val (congrFun hi' 0)
    have h3 : (i 3).val = j.val := congrArg Fin.val (congrFun hi' 1)
    have h1 : (i 1).val < 1 := (i 1).isLt
    funext c
    match c with
    | ⟨0, _⟩ => exact Fin.ext h0.symm
    | ⟨1, _⟩ => exact Fin.ext (by show 0 = (i 1).val; omega)
    | ⟨2, _⟩ => rfl
    | ⟨3, _⟩ => exact Fin.ext h3.symm
    | ⟨4, _⟩ => rfl
  rw [← Finset.sum_product']
  refine Finset.sum_nbij' (fun i => (i 4, i 2)) (fun pq => ix5 b 0 pq.2 j pq.1) ?_ ?_ ?_ ?_ ?_
  · intro i _; exact Finset.mem_product.mpr ⟨Finset.mem_univ _, Finset.mem_univ _⟩
  · intro pq _
    refine Finset.mem_filter.mpr ⟨Finset.mem_univ _, ?_⟩
    funext c; match c with | ⟨0, _⟩ => rfl | ⟨1, _⟩ => rfl
  · intro i hi; exact key i (Finset.mem_filter.mp hi).2
  · intro pq _; rfl
  · intro i hi; exact congrArg f (key i (Finset.mem_filter.mp hi).2).symm

/-- Summing a [8, 1, 160, 160, 159] array over axes 1, 2, 3: at (b, j) the nested sum over height, then depth. -/
theorem reduce_123 (h : (⟨5, ![8, 1, 160, 160, 159]⟩ : Shape).ReducesTo [1, 2, 3] ⟨2, ![8, 159]⟩)
    (f : (⟨5, ![8, 1, 160, 160, 159]⟩ : Shape).Idx → EReal) (init : EReal) (b : Fin 8) (j : Fin 159) :
    Ideal.hostReduceAdd h f init (ix2 b j) = init + ∑ p : Fin 160, ∑ q : Fin 160, f (ix5 b 0 q p j) := by
  unfold Ideal.hostReduceAdd
  congr 1
  have key : ∀ i : (⟨5, ![8, 1, 160, 160, 159]⟩ : Shape).Idx, h.drop i = ix2 b j → ix5 b 0 (i 2) (i 3) j = i := by
    intro i hi'
    have h0 : (i 0).val = b.val := congrArg Fin.val (congrFun hi' 0)
    have h4 : (i 4).val = j.val := congrArg Fin.val (congrFun hi' 1)
    have h1 : (i 1).val < 1 := (i 1).isLt
    funext c
    match c with
    | ⟨0, _⟩ => exact Fin.ext h0.symm
    | ⟨1, _⟩ => exact Fin.ext (by show 0 = (i 1).val; omega)
    | ⟨2, _⟩ => rfl
    | ⟨3, _⟩ => rfl
    | ⟨4, _⟩ => exact Fin.ext h4.symm
  rw [← Finset.sum_product']
  refine Finset.sum_nbij' (fun i => (i 3, i 2)) (fun pq => ix5 b 0 pq.2 pq.1 j) ?_ ?_ ?_ ?_ ?_
  · intro i _; exact Finset.mem_product.mpr ⟨Finset.mem_univ _, Finset.mem_univ _⟩
  · intro pq _
    refine Finset.mem_filter.mpr ⟨Finset.mem_univ _, ?_⟩
    funext c; match c with | ⟨0, _⟩ => rfl | ⟨1, _⟩ => rfl
  · intro i hi; exact key i (Finset.mem_filter.mp hi).2
  · intro pq _; rfl
  · intro i hi; exact congrArg f (key i (Finset.mem_filter.mp hi).2).symm

/-- Summing a [8, 3, 159] array over axes 0 and 2: at axis a the nested sum over batches, then slice pairs. -/
theorem reduce_02 (h : (⟨3, ![8, 3, 159]⟩ : Shape).ReducesTo [0, 2] ⟨1, ![3]⟩)
    (f : (⟨3, ![8, 3, 159]⟩ : Shape).Idx → EReal) (init : EReal) (a : Fin 3) :
    Ideal.hostReduceAdd h f init (ix1 a) = init + ∑ b : Fin 8, ∑ j : Fin 159, f (ix3 b a j) := by
  unfold Ideal.hostReduceAdd
  congr 1
  have key : ∀ i : (⟨3, ![8, 3, 159]⟩ : Shape).Idx, h.drop i = ix1 a → ix3 (i 0) a (i 2) = i := by
    intro i hi'
    have h1 : (i 1).val = a.val := congrArg Fin.val (congrFun hi' 0)
    funext c
    match c with
    | ⟨0, _⟩ => rfl
    | ⟨1, _⟩ => exact Fin.ext h1.symm
    | ⟨2, _⟩ => rfl
  rw [← Finset.sum_product']
  refine Finset.sum_nbij' (fun i => (i 0, i 2)) (fun pq => ix3 pq.1 a pq.2) ?_ ?_ ?_ ?_ ?_
  · intro i _; exact Finset.mem_product.mpr ⟨Finset.mem_univ _, Finset.mem_univ _⟩
  · intro pq _
    refine Finset.mem_filter.mpr ⟨Finset.mem_univ _, ?_⟩
    funext c; match c with | ⟨0, _⟩ => rfl
  · intro i hi; exact key i (Finset.mem_filter.mp hi).2
  · intro pq _; rfl
  · intro i hi; exact congrArg f (key i (Finset.mem_filter.mp hi).2).symm

end Cert.SliceDist

end
-- ==== Proof.KernelTail.lean ====
/-
  The kernel's host operations after the pallas_call, read on the extended reals.

  The pallas_call leaves an [8, 3, 160] array whose entry (b, a, j), j < 159, is the squared distance between slices
  j+1 and j of batch b along spatial axis a, and whose last column is zero (`sliceDists`). The host then drops the last
  column, divides minus the distances by 2·σ_a·σ_a (σ = exp log_sigma, broadcast along batches and slice pairs),
  exponentiates, sums over batches and slice pairs, divides by 1272, negates, sums the three axes and divides by 3
  (`tail`). On `sliceDists x` that is `loss x log_sigma`: (2·σ)·σ = 2·(σ·σ), and a sum started from the zero pattern is the sum.
-/
import proofs.«131797_j60833916780584_1_alg».proof.Proof.Gen.KernelIdeal
import proofs.«131797_j60833916780584_1_alg».proof.Proof.Spec
import Idealize.ShloMosaic.Lib.Pipeline.Value
import Idealize.ShloMosaic.Lib.ValueIdx
import Idealize.ShloMosaic.PureOps.Ideal.Laws

noncomputable section

namespace Cert.SliceDist.KernelTail

open Idealize.ShloMosaic Idealize.ShloMosaic.ValueIdx Cert.KernelIdeal Cert.KernelIdeal.Gen Cert.SliceDist
open scoped BigOperators

/-- What the pallas_call leaves in its [8, 3, 160] result: the slice distances, and zero in the padding column 159. -/
def sliceDists (x : S8x1x160x160x160.Idx → EReal) : S8x3x160.Idx → EReal :=
  fun y => if h : (y 2).val < 159 then dist x (y 1) (y 0) ⟨(y 2).val, h⟩ else 0

/-- The host operations after the pallas_call, composed, as a function of the call's result `q` and `log_sigma`. -/
def tail (q : FVec Ideal S8x3x160 .f32) (ls : FVec Ideal S3 .f32) : FVec Ideal S_ .f32 :=
  Host.divf (F := Ideal)
    (Host.reduceAdd
      (Host.negf
        (Host.divf
          (Host.reduceAdd
            (Host.exp
              (Host.divf
                (Host.negf (extractStridedSlice S8x3x159 ![0, 0, 0] q slices_S8x3x160_S8x3x159_0_0_0))
                (broadcastInDim S8x3x159 ![0, 1, 2] bcast_S1x3x1_S8x3x159_0_1_2
                  (shapeCast S1x3x1
                    (mulf (mulf (broadcastInDim S3 ![] bcast_S_S3 (constant S_ .f32 0x40000000#32)) (Host.exp ls)) (Host.exp ls))
                    shapeCasts_S3_S1x3x1))))
            (constant S_ .f32 0x00000000#32) reducesTo_S8x3x159_S3_d0_2 h_S_)
          (broadcastInDim S3 ![] bcast_S_S3 (constant S_ .f32 0x449F0000#32))))
      (constant S_ .f32 0x00000000#32) reducesTo_S3_S_d0 h_S_)
    (constant S_ .f32 0x40400000#32)

/-! ## A sum over a rank-1 index set is the sum over its coordinate -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → EReal) : ∑ i, f i = ∑ a : Fin n, f (ix1 a) := by
  rw [← Equiv.sum_comp (idxEquiv1 (n := n)).symm f]
  rfl

/-! ## The operations of the tail, each read at an index -/

/-- The slice drops column 159: entry (b, a, j) of the [8, 3, 159] slice is entry (b, a, j) of the array. -/
theorem slice_apply (q : FVec Ideal S8x3x160 .f32) (b : Fin 8) (a : Fin 3) (j : Fin 159) :
    extractStridedSlice S8x3x159 ![0, 0, 0] q slices_S8x3x160_S8x3x159_0_0_0 (ix3 b a j) = q (ix3 b a (dn j)) :=
  extractStridedSlice_apply ![0, 0, 0] q slices_S8x3x160_S8x3x159_0_0_0 (ix3 b a j) (ix3 b a (dn j)) (fun c => match c with
    | ⟨0, _⟩ => by show b.val = 0 + b.val; omega
    | ⟨1, _⟩ => by show a.val = 0 + a.val; omega
    | ⟨2, _⟩ => by show j.val = 0 + j.val; omega)

/-- Off the padding column the call's result is the slice distance. -/
theorem sliceDists_apply (x : S8x1x160x160x160.Idx → EReal) (b : Fin 8) (a : Fin 3) (j : Fin 159) :
    sliceDists x (ix3 b a (dn j)) = dist x a b j := by
  unfold sliceDists
  exact dif_pos j.isLt

/-- The divisor at (b, a, j): the [3] vector (2·σ)·σ, reshaped to [1, 3, 1] and broadcast along batches and slice
    pairs, is 2·(σ_a·σ_a). -/
theorem den_apply (ls : FVec Ideal S3 .f32) (b : Fin 8) (a : Fin 3) (j : Fin 159) :
    broadcastInDim S8x3x159 ![0, 1, 2] bcast_S1x3x1_S8x3x159_0_1_2
        (shapeCast S1x3x1
          (mulf (mulf (broadcastInDim S3 ![] bcast_S_S3 (constant (F := Ideal) S_ .f32 0x40000000#32)) (Host.exp ls)) (Host.exp ls))
          shapeCasts_S3_S1x3x1) (ix3 b a j)
      = Ideal.ofBits .f32 0x40000000#32 * (sigma ls a * sigma ls a) := by
  -- the broadcast reads the [1, 3, 1] operand at (0, a, 0)
  refine (broadcastInDim_apply _ bcast_S1x3x1_S8x3x159_0_1_2 _ (ix3 b a j) (ix3 (0 : Fin 1) a (0 : Fin 1)) (fun c => match c with
    | ⟨0, _⟩ => rfl
    | ⟨1, _⟩ => rfl
    | ⟨2, _⟩ => rfl)).trans ?_
  -- the reshape reads the [3] operand at a: both have row-major position a
  refine (shapeCast_apply _ shapeCasts_S3_S1x3x1 (ix3 (0 : Fin 1) a (0 : Fin 1)) (ix1 a)
    (by rw [Shape.rowMajor_val_one, Shape.rowMajor_val_three]
        show a.val = (0 * 3 + a.val) * 1 + 0
        omega)).trans ?_
  rw [mulf_apply, mulf_apply, broadcastInDim_apply _ bcast_S_S3 _ (ix1 a) ix0 (fun c => c.elim0)]
  show (Ideal.ofBits .f32 0x40000000#32 * Ideal.exp (ls (ix1 a))) * Ideal.exp (ls (ix1 a)) = _
  unfold sigma
  rw [mul_assoc]

/-- The exponentiated quotient at (b, a, j), for any divisor array. -/
theorem inner_apply (q : FVec Ideal S8x3x160 .f32) (D : FVec Ideal S8x3x159 .f32) (b : Fin 8) (a : Fin 3) (j : Fin 159) :
    Host.exp (F := Ideal) (Host.divf (Host.negf (extractStridedSlice S8x3x159 ![0, 0, 0] q slices_S8x3x160_S8x3x159_0_0_0)) D) (ix3 b a j)
      = Ideal.exp (Ideal.div (-(q (ix3 b a (dn j)))) (D (ix3 b a j))) := by
  show Ideal.exp (Ideal.div (-(extractStridedSlice S8x3x159 ![0, 0, 0] q slices_S8x3x160_S8x3x159_0_0_0 (ix3 b a j))) (D (ix3 b a j))) = _
  rw [slice_apply]

/-- The sum over batches and slice pairs from the zero pattern, divided by the broadcast 1272 pattern and negated, at
    axis a. -/
theorem mid_apply (E : FVec Ideal S8x3x159 .f32) (a : Fin 3) :
    Host.negf (F := Ideal) (Host.divf (Host.reduceAdd E (constant S_ .f32 0x00000000#32) reducesTo_S8x3x159_S3_d0_2 h_S_)
        (broadcastInDim S3 ![] bcast_S_S3 (constant S_ .f32 0x449F0000#32))) (ix1 a)
      = -(Ideal.div (∑ b : Fin 8, ∑ j : Fin 159, E (ix3 b a j)) (Ideal.ofBits .f32 0x449F0000#32)) := by
  show -(Ideal.div (Ideal.hostReduceAdd reducesTo_S8x3x159_S3_d0_2 E (Ideal.ofBits .f32 0x00000000#32) (ix1 a))
        (broadcastInDim S3 ![] bcast_S_S3 (constant (F := Ideal) S_ .f32 0x449F0000#32) (ix1 a))) = _
  rw [reduce_02, Ideal.ofBits_zero_f32, zero_add, broadcastInDim_apply _ bcast_S_S3 _ (ix1 a) ix0 (fun c => c.elim0)]
  rfl

/-- The sum of the three axes' entries from the zero pattern, divided by the 3.0 pattern. -/
theorem outer_apply (N : FVec Ideal S3 .f32) (i : S_.Idx) :
    Host.divf (F := Ideal) (Host.reduceAdd N (constant S_ .f32 0x00000000#32) reducesTo_S3_S_d0 h_S_) (constant S_ .f32 0x40400000#32) i
      = Ideal.div (∑ a : Fin 3, N (ix1 a)) (Ideal.ofBits .f32 0x40400000#32) := by
  show Ideal.div (Ideal.hostReduceAdd reducesTo_S3_S_d0 N (Ideal.ofBits .f32 0x00000000#32) i) (Ideal.ofBits .f32 0x40400000#32) = _
  rw [Ideal.hostReduceAdd_total reducesTo_S3_S_d0 (fun b => b.elim0) N _ i, Ideal.ofBits_zero_f32, zero_add, sum_idx1]

/-- On the slice distances the host tail is the loss. -/
theorem tail_sliceDists (x : FVec Ideal S8x1x160x160x160 .f32) (ls : FVec Ideal S3 .f32) :
    tail (sliceDists x) ls = fun _ => loss x ls := by
  funext i
  unfold tail
  refine (outer_apply _ i).trans ?_
  unfold loss
  refine congrArg (fun s => Ideal.div s (Ideal.ofBits .f32 0x40400000#32)) ?_
  refine Finset.sum_congr rfl (fun a _ => ?_)
  refine (mid_apply _ a).trans ?_
  unfold negMean
  refine congrArg (fun s => -(Ideal.div s (Ideal.ofBits .f32 0x449F0000#32))) ?_
  refine Finset.sum_congr rfl (fun b _ => Finset.sum_congr rfl (fun j _ => ?_))
  rw [inner_apply, den_apply, sliceDists_apply]

end Cert.SliceDist.KernelTail

end
-- ==== Proof.KernelBlock.lean ====
/-
  What one grid point of the kernel leaves in its [1, 3, 160] output block.

  The body works along each spatial axis in chunks of at most 16 slice pairs: it loads n+1 consecutive slices, subtracts the
  first n from the last n, squares, and sums the squares over the two other axes (two single-axis sums); the n totals are stored
  at row a (the axis), columns start … start+n−1. Column 159 is zeroed. Each chunk is read here at an index, for any chunk
  length n, as the nested sum over the two other axes of the squared voxel differences.
-/
import proofs.«131797_j60833916780584_1_alg».proof.Proof.Gen.KernelIdeal.Frame
import proofs.«131797_j60833916780584_1_alg».proof.Proof.Spec
import proofs.«131797_j60833916780584_1_alg».proof.Proof.KernelTail
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.SliceDist.KernelBlock

open Idealize.ShloMosaic Idealize.ShloMosaic.ValueIdx Cert.SliceDist
open scoped BigOperators

/-! ## A chunk along the depth axis -/

section Depth

variable (n n1 : ℕ)

/-- A slice of the chunk's n+1 loaded depth-slices (starting at `o`), re-laid from [1, 1, n+1, 160, 160] to [n+1, 160, 160],
    read at an index: the loaded voxel at depth `o` further on. -/
theorem sliceD (v : FVec Ideal ⟨5, ![1, 1, n1, 160, 160]⟩ .f32)
    (hc1 : (⟨5, ![1, 1, n1, 160, 160]⟩ : Shape).ShapeCasts ⟨3, ![n1, 160, 160]⟩) (o : ℕ)
    (hs : (⟨3, ![n1, 160, 160]⟩ : Shape).Slices ![o, 0, 0] ⟨3, ![n, 160, 160]⟩)
    (I : (⟨3, ![n, 160, 160]⟩ : Shape).Idx) (k' : Fin n1) (p q : Fin 160)
    (hk' : k'.val = o + (I 0).val) (hp : p.val = (I 1).val) (hq : q.val = (I 2).val) :
    extractStridedSlice ⟨3, ![n, 160, 160]⟩ ![o, 0, 0] (shapeCast ⟨3, ![n1, 160, 160]⟩ v hc1) hs I
      = v (ix5 0 0 k' p q) := by
  refine (extractStridedSlice_apply ![o, 0, 0] _ hs I (ix3 k' p q) ?_).trans ?_
  · intro a
    match a with
    | ⟨0, _⟩ => exact hk'
    | ⟨1, _⟩ => show p.val = 0 + (I 1).val; omega
    | ⟨2, _⟩ => show q.val = 0 + (I 2).val; omega
  · refine shapeCast_apply v hc1 _ (ix5 0 0 k' p q) ?_
    rw [Shape.rowMajor_val_five, Shape.rowMajor_val_three]
    show ((((0 * 1 + 0) * n1 + k'.val) * 160 + p.val) * 160 + q.val) = (k'.val * 160 + p.val) * 160 + q.val
    omega

/-- The chunk's n totals as the body computes them from the n+1 loaded slices `v`. -/
def chunkD (v : FVec Ideal ⟨5, ![1, 1, n1, 160, 160]⟩ .f32)
    (hc1 : (⟨5, ![1, 1, n1, 160, 160]⟩ : Shape).ShapeCasts ⟨3, ![n1, 160, 160]⟩)
    (hs1 : (⟨3, ![n1, 160, 160]⟩ : Shape).Slices ![1, 0, 0] ⟨3, ![n, 160, 160]⟩)
    (hs0 : (⟨3, ![n1, 160, 160]⟩ : Shape).Slices ![0, 0, 0] ⟨3, ![n, 160, 160]⟩)
    (hr2 : (⟨3, ![n, 160, 160]⟩ : Shape).Reduces [2] ⟨2, ![n, 160]⟩)
    (hr1 : (⟨2, ![n, 160]⟩ : Shape).Reduces [1] ⟨1, ![n]⟩)
    (hc2 : (⟨1, ![n]⟩ : Shape).ShapeCasts ⟨3, ![1, 1, n]⟩) : FVec Ideal ⟨3, ![1, 1, n]⟩ .f32 :=
  shapeCast ⟨3, ![1, 1, n]⟩
    (multiReduction .add [1] ⟨1, ![n]⟩
      (multiReduction .add [2] ⟨2, ![n, 160]⟩
        (mulf
          (subf (extractStridedSlice ⟨3, ![n, 160, 160]⟩ ![1, 0, 0] (shapeCast ⟨3, ![n1, 160, 160]⟩ v hc1) hs1)
            (extractStridedSlice ⟨3, ![n, 160, 160]⟩ ![0, 0, 0] (shapeCast ⟨3, ![n1, 160, 160]⟩ v hc1) hs0))
          (subf (extractStridedSlice ⟨3, ![n, 160, 160]⟩ ![1, 0, 0] (shapeCast ⟨3, ![n1, 160, 160]⟩ v hc1) hs1)
            (extractStridedSlice ⟨3, ![n, 160, 160]⟩ ![0, 0, 0] (shapeCast ⟨3, ![n1, 160, 160]⟩ v hc1) hs0)))
        0x00000000#32 hr2 (.inl rfl) rfl)
      0x00000000#32 hr1 (.inl rfl) rfl)
    hc2

/-- Total k of a depth chunk: the sum over height and width of the squared difference of loaded slices k+1 and k. -/
theorem chunkD_apply (hn : n1 = n + 1) (v : FVec Ideal ⟨5, ![1, 1, n1, 160, 160]⟩ .f32) (hc1) (hs1) (hs0) (hr2) (hr1) (hc2)
    (y : (⟨3, ![1, 1, n]⟩ : Shape).Idx) (k : Fin n) (hk : k.val = (y 2).val) :
    chunkD n n1 v hc1 hs1 hs0 hr2 hr1 hc2 y
      = ∑ h : Fin 160, ∑ w : Fin 160,
          sq (v (ix5 0 0 ⟨k.val + 1, by have := k.isLt; omega⟩ h w)) (v (ix5 0 0 ⟨k.val, by have := k.isLt; omega⟩ h w)) := by
  unfold chunkD
  refine (shapeCast_apply _ hc2 y (ix1 k) ?_).trans ?_
  · rw [Shape.rowMajor_val_one, Shape.rowMajor_val_three]
    have h0 : (y 0).val < 1 := (y 0).isLt
    have h1 : (y 1).val < 1 := (y 1).isLt
    show k.val = ((y 0).val * 1 + (y 1).val) * n + (y 2).val
    have e0 : (y 0).val = 0 := by omega
    have e1 : (y 1).val = 0 := by omega
    rw [e0, e1]; omega
  refine (Ideal.multiReduction_add_single _ 0x00000000#32 hr1 (.inl rfl) rfl (ix1 k)).trans ?_
  refine Finset.sum_congr rfl fun h _ => ?_
  refine (Ideal.multiReduction_add_single _ 0x00000000#32 hr2 (.inl rfl) rfl (hr1.lift (ix1 k) h)).trans ?_
  refine Finset.sum_congr rfl fun w _ => ?_
  show (_ - _) * (_ - _) = _
  rw [sliceD n n1 v hc1 1 hs1 _ ⟨k.val + 1, by have := k.isLt; omega⟩ h w (by show k.val + 1 = 1 + k.val; omega) rfl rfl,
    sliceD n n1 v hc1 0 hs0 _ ⟨k.val, by have := k.isLt; omega⟩ h w (by show k.val = 0 + k.val; omega) rfl rfl]
  rfl

end Depth

/-! ## A chunk along the height axis -/

section Height

variable (n n1 : ℕ)

/-- A slice (starting at row `o`) of the chunk's n+1 loaded rows, re-laid from [1, 1, 160, n+1, 160] to [160, n+1, 160],
    read at an index. -/
theorem sliceH (v : FVec Ideal ⟨5, ![1, 1, 160, n1, 160]⟩ .f32)
    (hc1 : (⟨5, ![1, 1, 160, n1, 160]⟩ : Shape).ShapeCasts ⟨3, ![160, n1, 160]⟩) (o : ℕ)
    (hs : (⟨3, ![160, n1, 160]⟩ : Shape).Slices ![0, o, 0] ⟨3, ![160, n, 160]⟩)
    (I : (⟨3, ![160, n, 160]⟩ : Shape).Idx) (k' : Fin n1) (p q : Fin 160)
    (hk' : k'.val = o + (I 1).val) (hp : p.val = (I 0).val) (hq : q.val = (I 2).val) :
    extractStridedSlice ⟨3, ![160, n, 160]⟩ ![0, o, 0] (shapeCast ⟨3, ![160, n1, 160]⟩ v hc1) hs I
      = v (ix5 0 0 p k' q) := by
  refine (extractStridedSlice_apply ![0, o, 0] _ hs I (ix3 p k' q) ?_).trans ?_
  · intro a
    match a with
    | ⟨0, _⟩ => show p.val = 0 + (I 0).val; omega
    | ⟨1, _⟩ => exact hk'
    | ⟨2, _⟩ => show q.val = 0 + (I 2).val; omega
  · refine shapeCast_apply v hc1 _ (ix5 0 0 p k' q) ?_
    rw [Shape.rowMajor_val_five, Shape.rowMajor_val_three]
    show ((((0 * 1 + 0) * 160 + p.val) * n1 + k'.val) * 160 + q.val) = (p.val * n1 + k'.val) * 160 + q.val
    simp only [Nat.zero_mul, Nat.zero_add, Nat.add_zero]

/-- The chunk's n totals as the body computes them from the n+1 loaded rows `v`: summed over depth, then over width. -/
def chunkH (v : FVec Ideal ⟨5, ![1, 1, 160, n1, 160]⟩ .f32)
    (hc1 : (⟨5, ![1, 1, 160, n1, 160]⟩ : Shape).ShapeCasts ⟨3, ![160, n1, 160]⟩)
    (hs1 : (⟨3, ![160, n1, 160]⟩ : Shape).Slices ![0, 1, 0] ⟨3, ![160, n, 160]⟩)
    (hs0 : (⟨3, ![160, n1, 160]⟩ : Shape).Slices ![0, 0, 0] ⟨3, ![160, n, 160]⟩)
    (hr0 : (⟨3, ![160, n, 160]⟩ : Shape).Reduces [0] ⟨2, ![n, 160]⟩)
    (hr1 : (⟨2, ![n, 160]⟩ : Shape).Reduces [1] ⟨1, ![n]⟩)
    (hc2 : (⟨1, ![n]⟩ : Shape).ShapeCasts ⟨3, ![1, 1, n]⟩) : FVec Ideal ⟨3, ![1, 1, n]⟩ .f32 :=
  shapeCast ⟨3, ![1, 1, n]⟩
    (multiReduction .add [1] ⟨1, ![n]⟩
      (multiReduction .add [0] ⟨2, ![n, 160]⟩
        (mulf
          (subf (extractStridedSlice ⟨3, ![160, n, 160]⟩ ![0, 1, 0] (shapeCast ⟨3, ![160, n1, 160]⟩ v hc1) hs1)
            (extractStridedSlice ⟨3, ![160, n, 160]⟩ ![0, 0, 0] (shapeCast ⟨3, ![160, n1, 160]⟩ v hc1) hs0))
          (subf (extractStridedSlice ⟨3, ![160, n, 160]⟩ ![0, 1, 0] (shapeCast ⟨3, ![160, n1, 160]⟩ v hc1) hs1)
            (extractStridedSlice ⟨3, ![160, n, 160]⟩ ![0, 0, 0] (shapeCast ⟨3, ![160, n1, 160]⟩ v hc1) hs0)))
        0x00000000#32 hr0 (.inl rfl) rfl)
      0x00000000#32 hr1 (.inl rfl) rfl)
    hc2

/-- Total k of a height chunk: the sum over width and depth of the squared difference of loaded rows k+1 and k. -/
theorem chunkH_apply (hn : n1 = n + 1) (v : FVec Ideal ⟨5, ![1, 1, 160, n1, 160]⟩ .f32) (hc1) (hs1) (hs0) (hr0) (hr1) (hc2)
    (y : (⟨3, ![1, 1, n]⟩ : Shape).Idx) (k : Fin n) (hk : k.val = (y 2).val) :
    chunkH n n1 v hc1 hs1 hs0 hr0 hr1 hc2 y
      = ∑ w : Fin 160, ∑ d : Fin 160,
          sq (v (ix5 0 0 d ⟨k.val + 1, by have := k.isLt; omega⟩ w)) (v (ix5 0 0 d ⟨k.val, by have := k.isLt; omega⟩ w)) := by
  unfold chunkH
  refine (shapeCast_apply _ hc2 y (ix1 k) ?_).trans ?_
  · rw [Shape.rowMajor_val_one, Shape.rowMajor_val_three]
    have h0 : (y 0).val < 1 := (y 0).isLt
    have h1 : (y 1).val < 1 := (y 1).isLt
    show k.val = ((y 0).val * 1 + (y 1).val) * n + (y 2).val
    have e0 : (y 0).val = 0 := by omega
    have e1 : (y 1).val = 0 := by omega
    rw [e0, e1]; omega
  refine (Ideal.multiReduction_add_single _ 0x00000000#32 hr1 (.inl rfl) rfl (ix1 k)).trans ?_
  refine Finset.sum_congr rfl fun w _ => ?_
  refine (Ideal.multiReduction_add_single _ 0x00000000#32 hr0 (.inl rfl) rfl (hr1.lift (ix1 k) w)).trans ?_
  refine Finset.sum_congr rfl fun d _ => ?_
  show (_ - _) * (_ - _) = _
  rw [sliceH n n1 v hc1 1 hs1 _ ⟨k.val + 1, by have := k.isLt; omega⟩ d w (by show k.val + 1 = 1 + k.val; omega) rfl rfl,
    sliceH n n1 v hc1 0 hs0 _ ⟨k.val, by have := k.isLt; omega⟩ d w (by show k.val = 0 + k.val; omega) rfl rfl]
  rfl

end Height

/-! ## A chunk along the width axis -/

section Width

variable (n n1 : ℕ)

/-- A slice (starting at column `o`) of the chunk's n+1 loaded columns, re-laid from [1, 1, 160, 160, n+1] to [160, 160, n+1],
    read at an index. -/
theorem sliceW (v : FVec Ideal ⟨5, ![1, 1, 160, 160, n1]⟩ .f32)
    (hc1 : (⟨5, ![1, 1, 160, 160, n1]⟩ : Shape).ShapeCasts ⟨3, ![160, 160, n1]⟩) (o : ℕ)
    (hs : (⟨3, ![160, 160, n1]⟩ : Shape).Slices ![0, 0, o] ⟨3, ![160, 160, n]⟩)
    (I : (⟨3, ![160, 160, n]⟩ : Shape).Idx) (k' : Fin n1) (p q : Fin 160)
    (hk' : k'.val = o + (I 2).val) (hp : p.val = (I 0).val) (hq : q.val = (I 1).val) :
    extractStridedSlice ⟨3, ![160, 160, n]⟩ ![0, 0, o] (shapeCast ⟨3, ![160, 160, n1]⟩ v hc1) hs I
      = v (ix5 0 0 p q k') := by
  refine (extractStridedSlice_apply ![0, 0, o] _ hs I (ix3 p q k') ?_).trans ?_
  · intro a
    match a with
    | ⟨0, _⟩ => show p.val = 0 + (I 0).val; omega
    | ⟨1, _⟩ => show q.val = 0 + (I 1).val; omega
    | ⟨2, _⟩ => exact hk'
  · refine shapeCast_apply v hc1 _ (ix5 0 0 p q k') ?_
    rw [Shape.rowMajor_val_five, Shape.rowMajor_val_three]
    show ((((0 * 1 + 0) * 160 + p.val) * 160 + q.val) * n1 + k'.val) = (p.val * 160 + q.val) * n1 + k'.val
    simp only [Nat.zero_mul, Nat.zero_add, Nat.add_zero]

/-- The chunk's n totals as the body computes them from the n+1 loaded columns `v`: summed over depth, then over height. -/
def chunkW (v : FVec Ideal ⟨5, ![1, 1, 160, 160, n1]⟩ .f32)
    (hc1 : (⟨5, ![1, 1, 160, 160, n1]⟩ : Shape).ShapeCasts ⟨3, ![160, 160, n1]⟩)
    (hs1 : (⟨3, ![160, 160, n1]⟩ : Shape).Slices ![0, 0, 1] ⟨3, ![160, 160, n]⟩)
    (hs0 : (⟨3, ![160, 160, n1]⟩ : Shape).Slices ![0, 0, 0] ⟨3, ![160, 160, n]⟩)
    (hrA : (⟨3, ![160, 160, n]⟩ : Shape).Reduces [0] ⟨2, ![160, n]⟩)
    (hrB : (⟨2, ![160, n]⟩ : Shape).Reduces [0] ⟨1, ![n]⟩)
    (hc2 : (⟨1, ![n]⟩ : Shape).ShapeCasts ⟨3, ![1, 1, n]⟩) : FVec Ideal ⟨3, ![1, 1, n]⟩ .f32 :=
  shapeCast ⟨3, ![1, 1, n]⟩
    (multiReduction .add [0] ⟨1, ![n]⟩
      (multiReduction .add [0] ⟨2, ![160, n]⟩
        (mulf
          (subf (extractStridedSlice ⟨3, ![160, 160, n]⟩ ![0, 0, 1] (shapeCast ⟨3, ![160, 160, n1]⟩ v hc1) hs1)
            (extractStridedSlice ⟨3, ![160, 160, n]⟩ ![0, 0, 0] (shapeCast ⟨3, ![160, 160, n1]⟩ v hc1) hs0))
          (subf (extractStridedSlice ⟨3, ![160, 160, n]⟩ ![0, 0, 1] (shapeCast ⟨3, ![160, 160, n1]⟩ v hc1) hs1)
            (extractStridedSlice ⟨3, ![160, 160, n]⟩ ![0, 0, 0] (shapeCast ⟨3, ![160, 160, n1]⟩ v hc1) hs0)))
        0x00000000#32 hrA (.inl rfl) rfl)
      0x00000000#32 hrB (.inl rfl) rfl)
    hc2

/-- Total k of a width chunk: the sum over height and depth of the squared difference of loaded columns k+1 and k. -/
theorem chunkW_apply (hn : n1 = n + 1) (v : FVec Ideal ⟨5, ![1, 1, 160, 160, n1]⟩ .f32) (hc1) (hs1) (hs0) (hrA) (hrB) (hc2)
    (y : (⟨3, ![1, 1, n]⟩ : Shape).Idx) (k : Fin n) (hk : k.val = (y 2).val) :
    chunkW n n1 v hc1 hs1 hs0 hrA hrB hc2 y
      = ∑ h : Fin 160, ∑ d : Fin 160,
          sq (v (ix5 0 0 d h ⟨k.val + 1, by have := k.isLt; omega⟩)) (v (ix5 0 0 d h ⟨k.val, by have := k.isLt; omega⟩)) := by
  unfold chunkW
  refine (shapeCast_apply _ hc2 y (ix1 k) ?_).trans ?_
  · rw [Shape.rowMajor_val_one, Shape.rowMajor_val_three]
    have h0 : (y 0).val < 1 := (y 0).isLt
    have h1 : (y 1).val < 1 := (y 1).isLt
    show k.val = ((y 0).val * 1 + (y 1).val) * n + (y 2).val
    have e0 : (y 0).val = 0 := by omega
    have e1 : (y 1).val = 0 := by omega
    rw [e0, e1]; omega
  refine (Ideal.multiReduction_add_single _ 0x00000000#32 hrB (.inl rfl) rfl (ix1 k)).trans ?_
  refine Finset.sum_congr rfl fun h _ => ?_
  refine (Ideal.multiReduction_add_single _ 0x00000000#32 hrA (.inl rfl) rfl (hrB.lift (ix1 k) h)).trans ?_
  refine Finset.sum_congr rfl fun d _ => ?_
  show (_ - _) * (_ - _) = _
  rw [sliceW n n1 v hc1 1 hs1 _ ⟨k.val + 1, by have := k.isLt; omega⟩ d h (by show k.val + 1 = 1 + k.val; omega) rfl rfl,
    sliceW n n1 v hc1 0 hs0 _ ⟨k.val, by have := k.isLt; omega⟩ d h (by show k.val = 0 + k.val; omega) rfl rfl]
  rfl

end Width

/-! ## One grid point's output block -/

section Block

open Cert.KernelIdeal Cert.KernelIdeal.Gen Cert.SliceDist.KernelTail

/-- Grid point t's [1, 3, 160] block of the slice-distance array: row a, column j is entry (t, a, j). -/
def blockDists (X : FVec Ideal S8x1x160x160x160 .f32) (t : Fin 8) : S1x3x160.Idx → EReal :=
  fun y => sliceDists X (ix3 t (⟨(y 1).val, (y 1).isLt⟩ : Fin 3) (⟨(y 2).val, (y 2).isLt⟩ : Fin 160))

/-- At a slice-pair column the block holds the distance; -/
theorem blockDists_pair (X : FVec Ideal S8x1x160x160x160 .f32) (t : Fin 8) (y : S1x3x160.Idx) (a : Fin 3) (j : Fin 159)
    (ha : (y 1).val = a.val) (hj : (y 2).val = j.val) : blockDists X t y = dist X a t j := by
  have hlt : (y 2).val < 159 := by have := j.isLt; omega
  unfold blockDists sliceDists
  split
  · next h =>
    have e1 : (⟨(y 1).val, (y 1).isLt⟩ : Fin 3) = a := Fin.ext ha
    have e2 : (⟨(y 2).val, h⟩ : Fin 159) = j := Fin.ext hj
    exact congrArg₂ (fun a' j' => dist X a' t j') e1 e2
  · next h => exact absurd hlt h

/-- at the padding column, zero. -/
theorem blockDists_pad (X : FVec Ideal S8x1x160x160x160 .f32) (t : Fin 8) (y : S1x3x160.Idx) (hy : (y 2).val = 159) :
    blockDists X t y = 0 := by
  unfold blockDists sliceDists
  split
  · next h => exact absurd (show (y 2).val < 159 from h) (by omega)
  · rfl

/-- A load from the staged batch, through a unit-stride rectangle, read at an index: the voxel of batch t at the
    rectangle's offsets plus the index. -/
theorem ld_block (X : FVec Ideal S8x1x160x160x160 .f32) (t : Fin 8) (x0 : FVec Ideal S1x1x160x160x160 .f32)
    (hx : ∀ d h w : Fin 160, x0 (ix5 0 0 d h w) = X (ix5 t 0 d h w))
    (off size : Fin 5 → ℕ) (inb : ∀ a, off a + size a ≤ S1x1x160x160x160.size a)
    (j : (Rect.unit (s := S1x1x160x160x160) off size inb).shape.Idx) (d h w : Fin 160)
    (hd : d.val = off 2 + (j 2).val) (hh : h.val = off 3 + (j 3).val) (hw : w.val = off 4 + (j 4).val) :
    View.ld (Val := Elt Ideal) (e' := EltTy.f32) x0 (Rect.unit (s := S1x1x160x160x160) off size inb) j = X (ix5 t 0 d h w) := by
  show x0 ((Rect.unit (s := S1x1x160x160x160) off size inb).idx j) = _
  rw [← hx]
  congr 1
  funext a
  match a with
  | ⟨0, _⟩ =>
    apply Fin.ext
    have h1 : ((Rect.unit (s := S1x1x160x160x160) off size inb).idx j 0).val < 1 := ((Rect.unit (s := S1x1x160x160x160) off size inb).idx j 0).isLt
    show ((Rect.unit (s := S1x1x160x160x160) off size inb).idx j 0).val = ((0 : Fin 1) : ℕ)
    have h2 : ((0 : Fin 1) : ℕ) < 1 := (0 : Fin 1).isLt
    omega
  | ⟨1, _⟩ =>
    apply Fin.ext
    have h1 : ((Rect.unit (s := S1x1x160x160x160) off size inb).idx j 1).val < 1 := ((Rect.unit (s := S1x1x160x160x160) off size inb).idx j 1).isLt
    show ((Rect.unit (s := S1x1x160x160x160) off size inb).idx j 1).val = ((0 : Fin 1) : ℕ)
    have h2 : ((0 : Fin 1) : ℕ) < 1 := (0 : Fin 1).isLt
    omega
  | ⟨2, _⟩ => apply Fin.ext; show off 2 + 1 * (j 2).val = d.val; omega
  | ⟨3, _⟩ => apply Fin.ext; show off 3 + 1 * (j 3).val = h.val; omega
  | ⟨4, _⟩ => apply Fin.ext; show off 4 + 1 * (j 4).val = w.val; omega

variable (X : FVec Ideal S8x1x160x160x160 .f32) (t : Fin 8) (x0 : FVec Ideal S1x1x160x160x160 .f32)
  (hx : ∀ d h w : Fin 160, x0 (ix5 0 0 d h w) = X (ix5 t 0 d h w))

include hx in
/-- A depth chunk of n pairs starting at slice s, stored at row 0, columns s …: each stored total is the block's entry. -/
theorem pieceD (n n1 s : ℕ) (hn : n1 = n + 1) (hs : s + n ≤ 159)
    (inbL : ∀ a, ![0, 0, s, 0, 0] a + ![1, 1, n1, 160, 160] a ≤ S1x1x160x160x160.size a)
    (inbS : ∀ a, ![0, 0, s] a + ![1, 1, n] a ≤ S1x3x160.size a)
    (hc1) (hs1) (hs0) (hr2) (hr1) (hc2)
    (x : (Rect.unit (s := S1x3x160) ![0, 0, s] ![1, 1, n] inbS).shape.Idx) :
    chunkD n n1 (View.ld (Val := Elt Ideal) (e' := EltTy.f32) x0 (Rect.unit (s := S1x1x160x160x160) ![0, 0, s, 0, 0] ![1, 1, n1, 160, 160] inbL)) hc1 hs1 hs0 hr2 hr1 hc2 x
      = blockDists X t ((Rect.unit (s := S1x3x160) ![0, 0, s] ![1, 1, n] inbS).emb x) := by
  have hx2 : (x 2).val < n := (x 2).isLt
  have hx1 : (x 1).val < 1 := (x 1).isLt
  rw [chunkD_apply n n1 hn _ hc1 hs1 hs0 hr2 hr1 hc2 x ⟨(x 2).val, hx2⟩ rfl,
    blockDists_pair X t _ 0 ⟨s + (x 2).val, by omega⟩ (by show 0 + 1 * (x 1).val = 0; omega)
      (by show s + 1 * (x 2).val = s + (x 2).val; omega)]
  show _ = ∑ h : Fin 160, ∑ w : Fin 160, sq (X (ix5 t 0 (up ⟨s + (x 2).val, _⟩) h w)) (X (ix5 t 0 (dn ⟨s + (x 2).val, _⟩) h w))
  refine Finset.sum_congr rfl fun h _ => Finset.sum_congr rfl fun w _ => ?_
  rw [ld_block X t x0 hx _ _ inbL _ (up ⟨s + (x 2).val, by omega⟩) h w (by show s + (x 2).val + 1 = s + ((x 2).val + 1); omega)
      (by show h.val = 0 + h.val; omega) (by show w.val = 0 + w.val; omega),
    ld_block X t x0 hx _ _ inbL _ (dn ⟨s + (x 2).val, by omega⟩) h w (by show s + (x 2).val = s + (x 2).val; rfl)
      (by show h.val = 0 + h.val; omega) (by show w.val = 0 + w.val; omega)]

include hx in
/-- A height chunk of n pairs starting at row s, stored at row 1, columns s …. -/
theorem pieceH (n n1 s : ℕ) (hn : n1 = n + 1) (hs : s + n ≤ 159)
    (inbL : ∀ a, ![0, 0, 0, s, 0] a + ![1, 1, 160, n1, 160] a ≤ S1x1x160x160x160.size a)
    (inbS : ∀ a, ![0, 1, s] a + ![1, 1, n] a ≤ S1x3x160.size a)
    (hc1) (hs1) (hs0) (hr0) (hr1) (hc2)
    (x : (Rect.unit (s := S1x3x160) ![0, 1, s] ![1, 1, n] inbS).shape.Idx) :
    chunkH n n1 (View.ld (Val := Elt Ideal) (e' := EltTy.f32) x0 (Rect.unit (s := S1x1x160x160x160) ![0, 0, 0, s, 0] ![1, 1, 160, n1, 160] inbL)) hc1 hs1 hs0 hr0 hr1 hc2 x
      = blockDists X t ((Rect.unit (s := S1x3x160) ![0, 1, s] ![1, 1, n] inbS).emb x) := by
  have hx2 : (x 2).val < n := (x 2).isLt
  have hx1 : (x 1).val < 1 := (x 1).isLt
  rw [chunkH_apply n n1 hn _ hc1 hs1 hs0 hr0 hr1 hc2 x ⟨(x 2).val, hx2⟩ rfl,
    blockDists_pair X t _ 1 ⟨s + (x 2).val, by omega⟩ (by show 1 + 1 * (x 1).val = 1; omega)
      (by show s + 1 * (x 2).val = s + (x 2).val; omega)]
  show _ = ∑ w : Fin 160, ∑ d : Fin 160, sq (X (ix5 t 0 d (up ⟨s + (x 2).val, _⟩) w)) (X (ix5 t 0 d (dn ⟨s + (x 2).val, _⟩) w))
  refine Finset.sum_congr rfl fun w _ => Finset.sum_congr rfl fun d _ => ?_
  rw [ld_block X t x0 hx _ _ inbL _ d (up ⟨s + (x 2).val, by omega⟩) w (by show d.val = 0 + d.val; omega)
      (by show s + (x 2).val + 1 = s + ((x 2).val + 1); omega) (by show w.val = 0 + w.val; omega),
    ld_block X t x0 hx _ _ inbL _ d (dn ⟨s + (x 2).val, by omega⟩) w (by show d.val = 0 + d.val; omega)
      (by show s + (x 2).val = s + (x 2).val; rfl) (by show w.val = 0 + w.val; omega)]

include hx in
/-- A width chunk of n pairs starting at column s, stored at row 2, columns s …. -/
theorem pieceW (n n1 s : ℕ) (hn : n1 = n + 1) (hs : s + n ≤ 159)
    (inbL : ∀ a, ![0, 0, 0, 0, s] a + ![1, 1, 160, 160, n1] a ≤ S1x1x160x160x160.size a)
    (inbS : ∀ a, ![0, 2, s] a + ![1, 1, n] a ≤ S1x3x160.size a)
    (hc1) (hs1) (hs0) (hrA) (hrB) (hc2)
    (x : (Rect.unit (s := S1x3x160) ![0, 2, s] ![1, 1, n] inbS).shape.Idx) :
    chunkW n n1 (View.ld (Val := Elt Ideal) (e' := EltTy.f32) x0 (Rect.unit (s := S1x1x160x160x160) ![0, 0, 0, 0, s] ![1, 1, 160, 160, n1] inbL)) hc1 hs1 hs0 hrA hrB hc2 x
      = blockDists X t ((Rect.unit (s := S1x3x160) ![0, 2, s] ![1, 1, n] inbS).emb x) := by
  have hx2 : (x 2).val < n := (x 2).isLt
  have hx1 : (x 1).val < 1 := (x 1).isLt
  rw [chunkW_apply n n1 hn _ hc1 hs1 hs0 hrA hrB hc2 x ⟨(x 2).val, hx2⟩ rfl,
    blockDists_pair X t _ 2 ⟨s + (x 2).val, by omega⟩ (by show 2 + 1 * (x 1).val = 2; omega)
      (by show s + 1 * (x 2).val = s + (x 2).val; omega)]
  show _ = ∑ h : Fin 160, ∑ d : Fin 160, sq (X (ix5 t 0 d h (up ⟨s + (x 2).val, _⟩))) (X (ix5 t 0 d h (dn ⟨s + (x 2).val, _⟩)))
  refine Finset.sum_congr rfl fun h _ => Finset.sum_congr rfl fun d _ => ?_
  rw [ld_block X t x0 hx _ _ inbL _ d h (up ⟨s + (x 2).val, by omega⟩) (by show d.val = 0 + d.val; omega)
      (by show h.val = 0 + h.val; omega) (by show s + (x 2).val + 1 = s + ((x 2).val + 1); omega),
    ld_block X t x0 hx _ _ inbL _ d h (dn ⟨s + (x 2).val, by omega⟩) (by show d.val = 0 + d.val; omega)
      (by show h.val = 0 + h.val; omega) (by show s + (x 2).val = s + (x 2).val; rfl)]

include hx in
/-- The body's 31 stores — ten chunks per axis and the zeroed padding column — tile the block, and each stored value is the
    block's entry where it lands: so the block ends as the slice distances of batch t. -/
theorem block_eq (c : Dev nD) (i : grid0.Coords) (arg1 : Memref sig .tc .vmem S1x1x160x160x160 .f32) (harg1 : arg1.IsWhole)
    (arg2 : Memref sig .tc .vmem S1x3x160 .f32) (harg2 : arg2.IsWhole) :
    out0_A_1 (F := Ideal) c i arg1 harg1 arg2 harg2 x0 = blockDists X t := by
  unfold out0_A_1
  rw [View.read_writes_eq_canon _ _ _ (cover0_A_1 (F := Ideal) c i arg1 harg1 arg2 harg2 x0)]
  funext y
  refine View.canon_apply_of_pieces (blockDists X t) _ ?_ y (cover0_A_1 (F := Ideal) c i arg1 harg1 arg2 harg2 x0 y)
  unfold kernelRun0_A
  dsimp only
  sl_unfold_words
  simp only [View.readAt_eq_ld, harg1.read_unread]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    rw [blockDists_pad X t _ (by have h2 : (x 2).val < 1 := (x 2).isLt; show 159 + 1 * (x 2).val = 159; omega)]
    show Ideal.ofBits .f32 0x00000000#32 = 0
    exact Ideal.ofBits_zero_f32
  · exact pieceW X t x0 hx 15 16 144 rfl (by omega) inb_S1x1x160x160x160_S1x1x160x160x16_0_0_0_0_144 inb_S1x3x160_S1x1x15_0_2_144 _ _ _ _ _ _
  · exact pieceW X t x0 hx 16 17 128 rfl (by omega) inb_S1x1x160x160x160_S1x1x160x160x17_0_0_0_0_128 inb_S1x3x160_S1x1x16_0_2_128 _ _ _ _ _ _
  · exact pieceW X t x0 hx 16 17 112 rfl (by omega) inb_S1x1x160x160x160_S1x1x160x160x17_0_0_0_0_112 inb_S1x3x160_S1x1x16_0_2_112 _ _ _ _ _ _
  · exact pieceW X t x0 hx 16 17 96 rfl (by omega) inb_S1x1x160x160x160_S1x1x160x160x17_0_0_0_0_96 inb_S1x3x160_S1x1x16_0_2_96 _ _ _ _ _ _
  · exact pieceW X t x0 hx 16 17 80 rfl (by omega) inb_S1x1x160x160x160_S1x1x160x160x17_0_0_0_0_80 inb_S1x3x160_S1x1x16_0_2_80 _ _ _ _ _ _
  · exact pieceW X t x0 hx 16 17 64 rfl (by omega) inb_S1x1x160x160x160_S1x1x160x160x17_0_0_0_0_64 inb_S1x3x160_S1x1x16_0_2_64 _ _ _ _ _ _
  · exact pieceW X t x0 hx 16 17 48 rfl (by omega) inb_S1x1x160x160x160_S1x1x160x160x17_0_0_0_0_48 inb_S1x3x160_S1x1x16_0_2_48 _ _ _ _ _ _
  · exact pieceW X t x0 hx 16 17 32 rfl (by omega) inb_S1x1x160x160x160_S1x1x160x160x17_0_0_0_0_32 inb_S1x3x160_S1x1x16_0_2_32 _ _ _ _ _ _
  · exact pieceW X t x0 hx 16 17 16 rfl (by omega) inb_S1x1x160x160x160_S1x1x160x160x17_0_0_0_0_16 inb_S1x3x160_S1x1x16_0_2_16 _ _ _ _ _ _
  · exact pieceW X t x0 hx 16 17 0 rfl (by omega) inb_S1x1x160x160x160_S1x1x160x160x17_0_0_0_0_0 inb_S1x3x160_S1x1x16_0_2_0 _ _ _ _ _ _
  · exact pieceH X t x0 hx 15 16 144 rfl (by omega) inb_S1x1x160x160x160_S1x1x160x16x160_0_0_0_144_0 inb_S1x3x160_S1x1x15_0_1_144 _ _ _ _ _ _
  · exact pieceH X t x0 hx 16 17 128 rfl (by omega) inb_S1x1x160x160x160_S1x1x160x17x160_0_0_0_128_0 inb_S1x3x160_S1x1x16_0_1_128 _ _ _ _ _ _
  · exact pieceH X t x0 hx 16 17 112 rfl (by omega) inb_S1x1x160x160x160_S1x1x160x17x160_0_0_0_112_0 inb_S1x3x160_S1x1x16_0_1_112 _ _ _ _ _ _
  · exact pieceH X t x0 hx 16 17 96 rfl (by omega) inb_S1x1x160x160x160_S1x1x160x17x160_0_0_0_96_0 inb_S1x3x160_S1x1x16_0_1_96 _ _ _ _ _ _
  · exact pieceH X t x0 hx 16 17 80 rfl (by omega) inb_S1x1x160x160x160_S1x1x160x17x160_0_0_0_80_0 inb_S1x3x160_S1x1x16_0_1_80 _ _ _ _ _ _
  · exact pieceH X t x0 hx 16 17 64 rfl (by omega) inb_S1x1x160x160x160_S1x1x160x17x160_0_0_0_64_0 inb_S1x3x160_S1x1x16_0_1_64 _ _ _ _ _ _
  · exact pieceH X t x0 hx 16 17 48 rfl (by omega) inb_S1x1x160x160x160_S1x1x160x17x160_0_0_0_48_0 inb_S1x3x160_S1x1x16_0_1_48 _ _ _ _ _ _
  · exact pieceH X t x0 hx 16 17 32 rfl (by omega) inb_S1x1x160x160x160_S1x1x160x17x160_0_0_0_32_0 inb_S1x3x160_S1x1x16_0_1_32 _ _ _ _ _ _
  · exact pieceH X t x0 hx 16 17 16 rfl (by omega) inb_S1x1x160x160x160_S1x1x160x17x160_0_0_0_16_0 inb_S1x3x160_S1x1x16_0_1_16 _ _ _ _ _ _
  · exact pieceH X t x0 hx 16 17 0 rfl (by omega) inb_S1x1x160x160x160_S1x1x160x17x160_0_0_0_0_0 inb_S1x3x160_S1x1x16_0_1_0 _ _ _ _ _ _
  · exact pieceD X t x0 hx 15 16 144 rfl (by omega) inb_S1x1x160x160x160_S1x1x16x160x160_0_0_144_0_0 inb_S1x3x160_S1x1x15_0_0_144 _ _ _ _ _ _
  · exact pieceD X t x0 hx 16 17 128 rfl (by omega) inb_S1x1x160x160x160_S1x1x17x160x160_0_0_128_0_0 inb_S1x3x160_S1x1x16_0_0_128 _ _ _ _ _ _
  · exact pieceD X t x0 hx 16 17 112 rfl (by omega) inb_S1x1x160x160x160_S1x1x17x160x160_0_0_112_0_0 inb_S1x3x160_S1x1x16_0_0_112 _ _ _ _ _ _
  · exact pieceD X t x0 hx 16 17 96 rfl (by omega) inb_S1x1x160x160x160_S1x1x17x160x160_0_0_96_0_0 inb_S1x3x160_S1x1x16_0_0_96 _ _ _ _ _ _
  · exact pieceD X t x0 hx 16 17 80 rfl (by omega) inb_S1x1x160x160x160_S1x1x17x160x160_0_0_80_0_0 inb_S1x3x160_S1x1x16_0_0_80 _ slices_S17x160x160_o1_0_0_S16x160x160 slices_S17x160x160_o0_0_0_S16x160x160 _ _ _
  · exact pieceD X t x0 hx 16 17 64 rfl (by omega) inb_S1x1x160x160x160_S1x1x17x160x160_0_0_64_0_0 inb_S1x3x160_S1x1x16_0_0_64 _ _ _ _ _ _
  · exact pieceD X t x0 hx 16 17 48 rfl (by omega) inb_S1x1x160x160x160_S1x1x17x160x160_0_0_48_0_0 inb_S1x3x160_S1x1x16_0_0_48 _ _ _ _ _ _
  · exact pieceD X t x0 hx 16 17 32 rfl (by omega) inb_S1x1x160x160x160_S1x1x17x160x160_0_0_32_0_0 inb_S1x3x160_S1x1x16_0_0_32 _ _ _ _ _ _
  · exact pieceD X t x0 hx 16 17 16 rfl (by omega) inb_S1x1x160x160x160_S1x1x17x160x160_0_0_16_0_0 inb_S1x3x160_S1x1x16_0_0_16 _ _ _ _ _ _
  · exact pieceD X t x0 hx 16 17 0 rfl (by omega) inb_S1x1x160x160x160_S1x1x17x160x160_0_0_0_0_0 inb_S1x3x160_S1x1x16_0_0_0 _ _ _ _ _ _

end Block

end Cert.SliceDist.KernelBlock

end
-- ==== Proof.KernelArray.lean ====
/-
  From one grid point's block to the kernel's result.

  The grid has one point per batch: point t stages batch t of the volume (block (t, 0, 0, 0, 0) of the argument) and
  writes back block (t, 0, 0) of the [8, 3, 160] result. The blocks written back are the blocks of ONE array, the slice
  distances of the whole volume, and they tile the result; so the result ends as that array, and the host operations
  after the call turn it into the loss.
-/
import proofs.«131797_j60833916780584_1_alg».proof.Proof.Gen.KernelIdeal.Frame
import proofs.«131797_j60833916780584_1_alg».proof.Proof.KernelBlock
import Idealize.ShloMosaic.Lib.StableHlo.Run
import Idealize.ShloMosaic.Lib.Pipeline.Value

set_option maxRecDepth 16384

noncomputable section

namespace Cert.SliceDist.KernelArray

open Idealize.ShloMosaic Idealize.ShloMosaic.TcCoe Idealize.ShloMosaic.ValueIdx Idealize.ShloMosaic.Tactic
open Idealize.SL Idealize.SL.Sem Idealize.ShloMosaic.StableHlo
open Idealize.ShloMosaic.Pipeline (Dat Cfg Window)
open Cert.KernelIdeal Cert.KernelIdeal.Gen Cert.SliceDist Cert.SliceDist.KernelTail Cert.SliceDist.KernelBlock

variable (m : (ℓ : Loc nD τ sig) → Buf (Elt Ideal) ℓ) (ρ : Dev nD → PrngReg)

/-- The volume as the call finds it. -/
abbrev xarr (c : Dev nD) : FVec Ideal S8x1x160x160x160 .f32 := V m c main_arg0
/-- The batch staged at grid point t. -/
abbrev xblk (c : Dev nD) (t : Fin cfg0.N) : FVec Ideal S1x1x160x160x160 .f32 := iblk m c 0 t

/-- The two index maps over the grid: point t reads block (t, 0, 0, 0, 0) and writes block (t, 0, 0). -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 3) = t.val ∧ win0_1.index t (1 : Fin 3) = 0 ∧ win0_1.index t (2 : Fin 3) = 0 :=
  (by decide +kernel : ∀ t : Fin grid0.N, _)

/-- The grid point as a batch number. -/
abbrev batch (t : Fin cfg0.N) : Fin 8 := ⟨t.val, by have := t.isLt; have h8 : cfg0.N = 8 := N_0; omega⟩

/-- The staged block is batch t of the volume. -/
theorem xblk_apply (c : Dev nD) (t : Fin cfg0.N) (d h w : Fin 160) :
    xblk m c t (ix5 0 0 d h w) = xarr m c (ix5 (batch t) 0 d h w) := by
  obtain ⟨e0, e1, e2, e3, e4, -, -, -⟩ := idx_facts t
  show V m c main_arg0 (((cfg0.win 0).blk t).view.emb (ix5 0 0 d h w)) = V m c main_arg0 (ix5 (batch t) 0 d h w)
  refine congrArg (V m c main_arg0) ?_
  funext a
  apply Fin.ext
  match a with
  | ⟨0, _⟩ => show win0_0.index t (0 : Fin 5) * 1 + 1 * ((0 : Fin 1) : ℕ) = t.val; have : ((0 : Fin 1) : ℕ) < 1 := (0 : Fin 1).isLt; omega
  | ⟨1, _⟩ => show win0_0.index t (1 : Fin 5) * 1 + 1 * ((0 : Fin 1) : ℕ) = ((0 : Fin 1) : ℕ); omega
  | ⟨2, _⟩ => show win0_0.index t (2 : Fin 5) * 160 + 1 * d.val = d.val; omega
  | ⟨3, _⟩ => show win0_0.index t (3 : Fin 5) * 160 + 1 * h.val = h.val; omega
  | ⟨4, _⟩ => show win0_0.index t (4 : Fin 5) * 160 + 1 * w.val = w.val; omega

/-- What point t writes back is block t of the slice distances of the volume. -/
theorem flushed_eq (c : Dev nD) (t : Fin cfg0.N) :
    (dats m 0 c).flushed 1 t = ((cfg0.win 1).blk t).view.read (Elt Ideal) (sliceDists (xarr m c)) := by
  obtain ⟨-, -, -, -, -, e0, e1, e2⟩ := idx_facts t
  show (cfg0.win 1).cut (grid0.coords t) ((dats m 0 c).after 1 t) = _
  rw [after0_1]
  unfold outsAt0
  rw [block_eq (xarr m c) (batch t) (xblk m c t) (xblk_apply m c t) c (grid0.coords t) (ms0_0 t) (hs0_0 t) (ms0_1 t) (hs0_1 t)]
  funext j
  show sliceDists (xarr m c) (ix3 (batch t) (⟨(j 1).val, (j 1).isLt⟩ : Fin 3) (⟨(j 2).val, (j 2).isLt⟩ : Fin 160))
    = sliceDists (xarr m c) (((cfg0.win 1).blk t).view.emb j)
  refine congrArg (sliceDists (xarr m c)) ?_
  funext a
  apply Fin.ext
  have h0 : (j 0).val < 1 := (j 0).isLt
  match a with
  | ⟨0, _⟩ => show t.val = win0_1.index t (0 : Fin 3) * 1 + 1 * (j 0).val; omega
  | ⟨1, _⟩ => show (j 1).val = win0_1.index t (1 : Fin 3) * 3 + 1 * (j 1).val; omega
  | ⟨2, _⟩ => show (j 2).val = win0_1.index t (2 : Fin 3) * 160 + 1 * (j 2).val; omega

/-- An entry of the result is in point t's block iff each coordinate is in the block's range on its axis. -/
theorem mem_blk (t : Fin cfg0.N) (i : S8x3x160.Idx) :
    i ∈ ((cfg0.win 1).blk t).view.set ↔ ∀ a : Fin 3, win0_1.index t a * S1x3x160.size a ≤ (i a).val
      ∧ (i a).val < win0_1.index t a * S1x3x160.size a + S1x3x160.size a := by
  show i ∈ ((View.whole main_v0).slice (win0_1.rect t)).set ↔ _
  rw [View.set_slice_whole, Rect.mem_set_unit]
  exact Iff.rfl

/-- Every entry of the result is in the block of the point its batch names. -/
theorem cover (i : S8x3x160.Idx) : ∃ t : Fin cfg0.N, (cfg0.win 1).flush t = true ∧ i ∈ ((cfg0.win 1).blk t).view.set := by
  have hi0 : (i 0).val < 8 := (i 0).isLt
  have hi1 : (i 1).val < 3 := (i 1).isLt
  have hi2 : (i 2).val < 160 := (i 2).isLt
  have h8 : cfg0.N = 8 := N_0
  have ht : (i 0).val < cfg0.N := by omega
  obtain ⟨-, -, -, -, -, e0, e1, e2⟩ := idx_facts ⟨(i 0).val, ht⟩
  refine ⟨⟨(i 0).val, ht⟩, flush0_1 _, ?_⟩
  rw [mem_blk]
  intro a
  match a with
  | ⟨0, _⟩ =>
    show win0_1.index ⟨(i 0).val, ht⟩ (0 : Fin 3) * 1 ≤ (i 0).val ∧ (i 0).val < win0_1.index ⟨(i 0).val, ht⟩ (0 : Fin 3) * 1 + 1
    have e0' : win0_1.index ⟨(i 0).val, ht⟩ (0 : Fin 3) = (i 0).val := e0
    omega
  | ⟨1, _⟩ =>
    show win0_1.index ⟨(i 0).val, ht⟩ (1 : Fin 3) * 3 ≤ (i 1).val ∧ (i 1).val < win0_1.index ⟨(i 0).val, ht⟩ (1 : Fin 3) * 3 + 3
    omega
  | ⟨2, _⟩ =>
    show win0_1.index ⟨(i 0).val, ht⟩ (2 : Fin 3) * 160 ≤ (i 2).val ∧ (i 2).val < win0_1.index ⟨(i 0).val, ht⟩ (2 : Fin 3) * 160 + 160
    omega

/-- The call's result array after the run: the slice distances of the volume. -/
theorem final (c : Dev nD) : (dats m 0 c).arrAt 1 cfg0.N = sliceDists (xarr m c) :=
  (dats m 0 c).arrAt_eq_of_cover 1 (sliceDists (xarr m c)) (fun t _ => flushed_eq m c t) (cover)

/-- The program's result after the host operations that follow the call: the tail of the call's result and log_sigma. -/
theorem tail_v16 (c : Dev nD) :
    Pipeline.afterTail₀ cfgs (dats m) 0 (V0 m) [hostOps1] c main_v16
      = tail ((dats m 0 c).arrAt 1 cfg0.N) (m ((c : Thread nD τ).loc main_arg1)) := by
  unfold Pipeline.afterTail₀
  show StableHlo.after hostOps1 _ (Proc.devRef .tc main_v16) = _
  after_results
  rw [Pipeline.withArrays_arr spec0 launch0.win.arr_inj c _ _ 1,
    Pipeline.withArrays_of_ne _ c (V0 m c) _ main_arg1 (by exact (by decide : ∀ w, Pipeline.arrRef spec0 w ≠ main_arg1))]
  rfl

/-- The kernel program's run, read: it ends with the loss of its arguments in its result, the arguments unchanged. -/
theorem run : θ_run defs (onTc (τ := τ) (main (F := Ideal))) ⟨m, fun _ => 0, ρ⟩ (fun r => ∀ c : Dev nD,
      r.2.mem ((c.tc : Thread nD τ).loc main_v16)
        = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v16 (Pipeline.mem_restRefs_of main_v16 (by decide) (by decide))).trans
        ((tail_v16 m c).trans (by rw [final m c]; exact tail_sliceDists (xarr m c) _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.SliceDist.KernelArray

end
-- ==== Proof.RefSide.lean ====
/-
  The reference, read on the extended reals: its last stage is the loss.

  Per spatial axis the reference takes the difference of the volume with itself shifted by one slice, squares it, sums over
  the channel and the two other spatial axes (a host sum over three axes, read as a nested sum over the two long ones),
  divides minus that by 2·(σ_a·σ_a), exponentiates, sums over all (batch, slice pair) entries, divides by 1272 and negates;
  the three axes' values are added to zero one after the other and the total is divided by 3.
-/
import proofs.«131797_j60833916780584_1_alg».proof.Proof.Gen.ReferenceIdeal.Read
import proofs.«131797_j60833916780584_1_alg».proof.Proof.Spec
import Idealize.ShloMosaic.Lib.Pipeline.Value
import Idealize.ShloMosaic.Lib.ValueIdx
import Idealize.ShloMosaic.PureOps.Ideal.Laws

noncomputable section

namespace Cert.SliceDist.RefSide

open Idealize.ShloMosaic Idealize.ShloMosaic.ValueIdx Cert.ReferenceIdeal Cert.ReferenceIdeal.Gen Cert.ReferenceIdeal.Read Cert.SliceDist
open scoped BigOperators

/-! ## The reshape to rank 0 -/

/-- A one-element vector reshaped to rank 0 reads its one element: both row-major positions are 0. -/
theorem cast_scalar (y : S1.Idx → EReal) (h : S1.ShapeCasts S_) (i : S_.Idx) :
    shapeCast S_ y h i = y (ix1 0) := by
  refine shapeCast_apply y h i (ix1 0) ?_
  have h0 : (S_.rowMajor i).val < 1 := (S_.rowMajor i).isLt
  rw [Shape.rowMajor_val_one]
  show 0 = _
  omega

/-! ## The three widths: σ_a is the a-th element of exp(log_sigma), sliced out and reshaped to rank 0 -/

theorem sigma0 (x1 : (⟨S3, .f32⟩ : BufTy).Contents (Elt Ideal)) (i : S_.Idx) :
    val_main_v6 (F := Ideal) x1 i = sigma x1 0 := by
  unfold val_main_v6
  rw [cast_scalar, val_main_v5_apply, val_main_v0_apply]
  simp only [Ideal.hostUnary_exp_def]
  unfold sigma
  congr 2
  funext a
  match a with
  | ⟨0, _⟩ => rfl

theorem sigma1 (x1 : (⟨S3, .f32⟩ : BufTy).Contents (Elt Ideal)) (i : S_.Idx) :
    val_main_v21 (F := Ideal) x1 i = sigma x1 1 := by
  unfold val_main_v21
  rw [cast_scalar, val_main_v20_apply, val_main_v0_apply]
  simp only [Ideal.hostUnary_exp_def]
  unfold sigma
  congr 2
  funext a
  match a with
  | ⟨0, _⟩ => rfl

theorem sigma2 (x1 : (⟨S3, .f32⟩ : BufTy).Contents (Elt Ideal)) (i : S_.Idx) :
    val_main_v36 (F := Ideal) x1 i = sigma x1 2 := by
  unfold val_main_v36
  rw [cast_scalar, val_main_v35_apply, val_main_v0_apply]
  simp only [Ideal.hostUnary_exp_def]
  unfold sigma
  congr 2
  funext a
  match a with
  | ⟨0, _⟩ => rfl

/-! ## The slices' indices: the shifted slice reads slice j+1, the unshifted one slice j -/

theorem up0 (b : Fin 8) (j : Fin 159) (p q : Fin 160) :
    idx_main_call0_v0 (ix5 b 0 j p q) = ix5 b 0 (up j) p q := by
  funext a
  match a with
  | ⟨0, _⟩ => rfl
  | ⟨1, _⟩ => rfl
  | ⟨2, _⟩ => exact Fin.ext (by show 1 + j.val = j.val + 1; omega)
  | ⟨3, _⟩ => rfl
  | ⟨4, _⟩ => rfl

theorem dn0 (b : Fin 8) (j : Fin 159) (p q : Fin 160) :
    idx_main_call0_v1 (ix5 b 0 j p q) = ix5 b 0 (dn j) p q := by
  funext a
  match a with
  | ⟨0, _⟩ => rfl
  | ⟨1, _⟩ => rfl
  | ⟨2, _⟩ => rfl
  | ⟨3, _⟩ => rfl
  | ⟨4, _⟩ => rfl

theorem up1 (b : Fin 8) (j : Fin 159) (d w : Fin 160) :
    idx_main_call1_v0 (ix5 b 0 d j w) = ix5 b 0 d (up j) w := by
  funext a
  match a with
  | ⟨0, _⟩ => rfl
  | ⟨1, _⟩ => rfl
  | ⟨2, _⟩ => rfl
  | ⟨3, _⟩ => exact Fin.ext (by show 1 + j.val = j.val + 1; omega)
  | ⟨4, _⟩ => rfl

theorem dn1 (b : Fin 8) (j : Fin 159) (d w : Fin 160) :
    idx_main_call1_v1 (ix5 b 0 d j w) = ix5 b 0 d (dn j) w := by
  funext a
  match a with
  | ⟨0, _⟩ => rfl
  | ⟨1, _⟩ => rfl
  | ⟨2, _⟩ => rfl
  | ⟨3, _⟩ => rfl
  | ⟨4, _⟩ => rfl

theorem up2 (b : Fin 8) (j : Fin 159) (d h : Fin 160) :
    idx_main_call2_v0 (ix5 b 0 d h j) = ix5 b 0 d h (up j) := by
  funext a
  match a with
  | ⟨0, _⟩ => rfl
  | ⟨1, _⟩ => rfl
  | ⟨2, _⟩ => rfl
  | ⟨3, _⟩ => rfl
  | ⟨4, _⟩ => exact Fin.ext (by show 1 + j.val = j.val + 1; omega)

theorem dn2 (b : Fin 8) (j : Fin 159) (d h : Fin 160) :
    idx_main_call2_v1 (ix5 b 0 d h j) = ix5 b 0 d h (dn j) := by
  funext a
  match a with
  | ⟨0, _⟩ => rfl
  | ⟨1, _⟩ => rfl
  | ⟨2, _⟩ => rfl
  | ⟨3, _⟩ => rfl
  | ⟨4, _⟩ => rfl

/-! ## The host sums over three axes: the squared slice distances -/

/-- Axis 0: the sum over the channel, height and width of the squared differences is dist at axis 0. -/
theorem dist0 (x0 : (⟨S8x1x160x160x160, .f32⟩ : BufTy).Contents (Elt Ideal)) (b : Fin 8) (j : Fin 159) :
    val_main_v3 (F := Ideal) x0 (ix2 b j) = dist x0 0 b j := by
  unfold val_main_v3
  simp only [Host.reduceAdd, Ideal.hostReduceAdd_def]
  rw [reduce_134]
  simp only [val_main_cst_apply, Ideal.ofBits_def, Ideal.ofBits_zero_f32, zero_add,
    val_main_v2_apply, val_main_v1_apply, val_main_call0_v0_apply, val_main_call0_v1_apply,
    Ideal.mulf_def, Ideal.subf_def, up0, dn0]
  rfl

/-- Axis 1: the sum over the channel, depth and width (width outermost) is dist at axis 1. -/
theorem dist1 (x0 : (⟨S8x1x160x160x160, .f32⟩ : BufTy).Contents (Elt Ideal)) (b : Fin 8) (j : Fin 159) :
    val_main_v18 (F := Ideal) x0 (ix2 b j) = dist x0 1 b j := by
  unfold val_main_v18
  simp only [Host.reduceAdd, Ideal.hostReduceAdd_def]
  rw [reduce_124]
  simp only [val_main_cst_4_apply, Ideal.ofBits_def, Ideal.ofBits_zero_f32, zero_add,
    val_main_v17_apply, val_main_v16_apply, val_main_call1_v0_apply, val_main_call1_v1_apply,
    Ideal.mulf_def, Ideal.subf_def, up1, dn1]
  rfl

/-- Axis 2: the sum over the channel, depth and height (height outermost) is dist at axis 2. -/
theorem dist2 (x0 : (⟨S8x1x160x160x160, .f32⟩ : BufTy).Contents (Elt Ideal)) (b : Fin 8) (j : Fin 159) :
    val_main_v33 (F := Ideal) x0 (ix2 b j) = dist x0 2 b j := by
  unfold val_main_v33
  simp only [Host.reduceAdd, Ideal.hostReduceAdd_def]
  rw [reduce_123]
  simp only [val_main_cst_8_apply, Ideal.ofBits_def, Ideal.ofBits_zero_f32, zero_add,
    val_main_v32_apply, val_main_v31_apply, val_main_call2_v0_apply, val_main_call2_v1_apply,
    Ideal.mulf_def, Ideal.subf_def, up2, dn2]
  rfl

/-! ## One axis: minus the mean of exp(−dist / (2σ²)) over the 8·159 slice pairs -/

theorem axis0 (x0 : (⟨S8x1x160x160x160, .f32⟩ : BufTy).Contents (Elt Ideal)) (x1 : (⟨S3, .f32⟩ : BufTy).Contents (Elt Ideal))
    (i : S_.Idx) : val_main_v14 (F := Ideal) x0 x1 i = negMean x0 x1 0 := by
  rw [val_main_v14_apply, val_main_v13_apply, val_main_v12_apply, sum_idx2]
  simp only [val_main_v11_apply, val_main_v10_apply, val_main_v4_apply, val_main_v9_apply, val_main_v8_apply,
    val_main_v7_apply, val_main_cst_0_apply, val_main_cst_1_apply, val_main_cst_2_apply, sigma0, dist0,
    Ideal.hostNegf_def, Ideal.negf_def, Ideal.hostDivf_def, Ideal.hostUnary_exp_def, Ideal.mulf_def, Ideal.ofBits_def,
    Ideal.ofBits_zero_f32, zero_add]
  rfl

theorem axis1 (x0 : (⟨S8x1x160x160x160, .f32⟩ : BufTy).Contents (Elt Ideal)) (x1 : (⟨S3, .f32⟩ : BufTy).Contents (Elt Ideal))
    (i : S_.Idx) : val_main_v29 (F := Ideal) x0 x1 i = negMean x0 x1 1 := by
  rw [val_main_v29_apply, val_main_v28_apply, val_main_v27_apply, sum_idx2]
  simp only [val_main_v26_apply, val_main_v25_apply, val_main_v19_apply, val_main_v24_apply, val_main_v23_apply,
    val_main_v22_apply, val_main_cst_5_apply, val_main_cst_6_apply, val_main_cst_7_apply, sigma1, dist1,
    Ideal.hostNegf_def, Ideal.negf_def, Ideal.hostDivf_def, Ideal.hostUnary_exp_def, Ideal.mulf_def, Ideal.ofBits_def,
    Ideal.ofBits_zero_f32, zero_add]
  rfl

theorem axis2 (x0 : (⟨S8x1x160x160x160, .f32⟩ : BufTy).Contents (Elt Ideal)) (x1 : (⟨S3, .f32⟩ : BufTy).Contents (Elt Ideal))
    (i : S_.Idx) : val_main_v44 (F := Ideal) x0 x1 i = negMean x0 x1 2 := by
  rw [val_main_v44_apply, val_main_v43_apply, val_main_v42_apply, sum_idx2]
  simp only [val_main_v41_apply, val_main_v40_apply, val_main_v34_apply, val_main_v39_apply, val_main_v38_apply,
    val_main_v37_apply, val_main_cst_9_apply, val_main_cst_10_apply, val_main_cst_11_apply, sigma2, dist2,
    Ideal.hostNegf_def, Ideal.negf_def, Ideal.hostDivf_def, Ideal.hostUnary_exp_def, Ideal.mulf_def, Ideal.ofBits_def,
    Ideal.ofBits_zero_f32, zero_add]
  rfl

/-- The reference's result (its last generated stage) is the loss. -/
theorem ref_loss (x0 : (⟨S8x1x160x160x160, .f32⟩ : BufTy).Contents (Elt Ideal)) (x1 : (⟨S3, .f32⟩ : BufTy).Contents (Elt Ideal)) :
    val_main_v46 (F := Ideal) x0 x1 = fun _ => loss x0 x1 := by
  funext i
  rw [val_main_v46_apply, val_main_v45_apply, val_main_v30_apply, val_main_v15_apply, axis0, axis1, axis2]
  simp only [val_main_cst_3_apply, val_main_cst_12_apply, Ideal.addf_def, Ideal.hostDivf_def, Ideal.ofBits_def,
    Ideal.ofBits_zero_f32, zero_add]
  unfold loss
  rw [Fin.sum_univ_three]

end Cert.SliceDist.RefSide

end
-- ==== Proof.lean ====
/-
  A slice-smoothness loss on a volume x[b, 0, d, h, w] (8 batches of 160³ voxels), computed two ways.

  For each of the three spatial axes, the squared distance between neighbouring slices j and j+1 is the sum over the
  two other axes of the squared voxel differences; the loss is the mean over batches and slice pairs of
  exp(−distance / (2σ²)), σ = exp(log_sigma) per axis, negated, summed over the three axes and divided by three.

  The kernel computes the distances on chip, one batch per grid point, in chunks of at most 16 slice pairs (load n+1
  slices, subtract, square, sum over the two other axes by two single-axis sums), into an [8, 3, 160] array whose last
  column is padding, and finishes on the host over that array at once. The reference differences the whole volume per
  axis, sums over three axes at once, and adds the three axes' terms one after the other.

  On the extended reals the two agree with no finiteness needed: both apply the same subtraction, product, quotient and
  exponential to the same voxels; sums are only regrouped and reordered (addition of extended reals is commutative and
  associative); the kernel's divisor (2·σ)·σ is the reference's 2·(σ·σ) by associativity of the product; and a sum
  started from the zero pattern is the sum. Both results are stated as the one function `Cert.SliceDist.loss`.
  The three frames are the generated ones (the reference's from its generated run); nothing was rewritten by the ideal
  pass, so the preservation claim is trivial.
-/
import proofs.«131797_j60833916780584_1_alg».proof.Defs
import proofs.«131797_j60833916780584_1_alg».proof.Proof.Gen.Kernel
import proofs.«131797_j60833916780584_1_alg».proof.Proof.Gen.Kernel.Skeleton
import proofs.«131797_j60833916780584_1_alg».proof.Proof.Gen.Kernel.Launch
import proofs.«131797_j60833916780584_1_alg».proof.Proof.Gen.Kernel.Points
import proofs.«131797_j60833916780584_1_alg».proof.Proof.Gen.Kernel.Frame
import proofs.«131797_j60833916780584_1_alg».proof.Proof.Gen.KernelIdeal
import proofs.«131797_j60833916780584_1_alg».proof.Proof.Gen.KernelIdeal.Skeleton
import proofs.«131797_j60833916780584_1_alg».proof.Proof.Gen.KernelIdeal.Launch
import proofs.«131797_j60833916780584_1_alg».proof.Proof.Gen.KernelIdeal.Points
import proofs.«131797_j60833916780584_1_alg».proof.Proof.Gen.KernelIdeal.Frame
import proofs.«131797_j60833916780584_1_alg».proof.Proof.Gen.ReferenceIdeal
import proofs.«131797_j60833916780584_1_alg».proof.Proof.Gen.Pre_finite_inputs
import proofs.«131797_j60833916780584_1_alg».proof.Proof.Gen.ReferenceIdeal.Run
import proofs.«131797_j60833916780584_1_alg».proof.Proof.Gen.ReferenceIdeal.Read
import proofs.«131797_j60833916780584_1_alg».proof.Proof.KernelArray
import proofs.«131797_j60833916780584_1_alg».proof.Proof.RefSide
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: there is nothing to preserve. -/
theorem preserves : Cert.preserves_Kernel_KernelIdeal := trivial

/-- Both programs end with the loss of their (agreeing) arguments in their results. -/
theorem algebraic : Cert.algebraic_KernelIdeal_ReferenceIdeal := by
  intro m ρ m' ρ' _ hagree
  refine ⟨fun c => fun _ => Cert.SliceDist.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SliceDist.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.SliceDist.RefSide.ref_loss, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
